-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x512 .f32) (main_arg1 : FVec F S4096x512 .f32) (main_arg2 : FVec F S4096x512 .f32) (main_arg3 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Kernel.lean ====
abbrev S4096x512 : Shape := ⟨2, ![4096, 512]⟩
abbrev S8x8x128 : Shape := ⟨3, ![8, 8, 128]⟩
abbrev S512x512 : Shape := ⟨2, ![512, 512]⟩
abbrev S1x8x128 : Shape := ⟨3, ![1, 8, 128]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S8x1x1 : Shape := ⟨3, ![8, 1, 1]⟩
abbrev S8 : Shape := ⟨1, ![8]⟩
abbrev S_ : Shape := ⟨0, ![]⟩

abbrev nBuf : Space → Nat
  | .hbm => 11
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S8x8x128, .f32⟩
  | .hbm, ⟨5, _⟩ => ⟨S8x1x1, .f32⟩
  | .hbm, ⟨6, _⟩ => ⟨S8, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S1x8x128, .f32⟩
  | .local _ .vmem, ⟨17, _⟩ => ⟨S1x8x128, .f32⟩
  | .local _ .vmem, ⟨18, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v120 : BitVec 1 := Scalar.cmpi .eq arg1 c7_i32
  let v121 : BitVec 32 := Scalar.extui v120
  let c0_i32_48 : BitVec 32 := 0#32
  let v122 : BitVec 1 := Scalar.cmpi .ne v121 c0_i32_48
  v122

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  reduces_S512x1_S1 : S512x1.Reduces [0] S1
  shapeCasts_S1_S1x1 : S1.ShapeCasts S1x1
  shapeCasts_S1x1_S1x1 : S1x1.ShapeCasts S1x1
  broadcasts_S1x1_S8x128 : S1x1.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .f32 = 32 ∨ (Rect.block (s := S4096x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x512.size a
  hwx0_4 : ∀ i : grid0.Coords, EltTy.bits .f32 = 32 ∨ (Rect.block (s := S4096x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x512.size a
  hwx0_5 : ∀ i : grid0.Coords, EltTy.bits .f32 = 32 ∨ (Rect.block (s := S4096x512) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x512.size a
  hwx0_6 : ∀ i : grid0.Coords, EltTy.bits .f32 = 32 ∨ (Rect.block (s := S4096x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S4096x512.size a
  hwx0_7 : ∀ i : grid0.Coords, EltTy.bits .f32 = 32 ∨ (Rect.block (s := S4096x512) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x128.size a ≤ S8x8x128.size a
  hwx0_8 : ∀ i : grid0.Coords, EltTy.bits .f32 = 32 ∨ (Rect.block (s := S8x8x128) S1x8x128.size (cc0_transform_8 i) (hinb0_8 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S512x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S512x4096 : Shape := ⟨2, ![512, 4096]⟩
abbrev S4096x4096 : Shape := ⟨2, ![4096, 4096]⟩

abbrev nBuf : Space → Nat
  | .hbm => 90
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x512, .f32⟩
  | .hbm, ⟨13, _⟩ => ⟨S4096x512, .f32⟩
  | .hbm, ⟨14, _⟩ => ⟨S512x4096, .f32⟩
  | .hbm, ⟨15, _⟩ => ⟨S4096x4096, .f32⟩
  | .hbm, ⟨16, _⟩ => ⟨S4096x512, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x512, .f32⟩
  | .hbm, ⟨25, _⟩ => ⟨S4096x512, .f32⟩
  | .hbm, ⟨26, _⟩ => ⟨S512x4096, .f32⟩
  | .hbm, ⟨27, _⟩ => ⟨S4096x4096, .f32⟩
  | .hbm, ⟨28, _⟩ => ⟨S4096x512, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x512, .f32⟩
  | .hbm, ⟨37, _⟩ => ⟨S4096x512, .f32⟩
  | .hbm, ⟨38, _⟩ => ⟨S512x4096, .f32⟩
  | .hbm, ⟨39, _⟩ => ⟨S4096x4096, .f32⟩
  | .hbm, ⟨40, _⟩ => ⟨S4096x512, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x512, .f32⟩
  | .hbm, ⟨49, _⟩ => ⟨S4096x512, .f32⟩
  | .hbm, ⟨50, _⟩ => ⟨S512x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S4096x4096, .f32⟩
  | .hbm, ⟨78, _⟩ => ⟨S4096x4096, .f32⟩
  | .hbm, ⟨79, _⟩ => ⟨S_, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_v0 : Ref sig .tc := ⟨.hbm, 28, rfl⟩
abbrev main_call2_cst : Ref sig .tc := ⟨.hbm, 29, rfl⟩
abbrev main_call2_v1 : Ref sig .tc := ⟨.hbm, 30, rfl⟩
abbrev main_call2_v2 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call3_v0 : Ref sig .tc := ⟨.hbm, 40, rfl⟩
abbrev main_call3_cst : Ref sig .tc := ⟨.hbm, 41, rfl⟩
abbrev main_call3_v1 : Ref sig .tc := ⟨.hbm, 42, rfl⟩
abbrev main_call3_v2 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_cst_11 : Ref sig .tc := ⟨.hbm, 76, rfl⟩
abbrev main_v44 : Ref sig .tc := ⟨.hbm, 77, rfl⟩
abbrev main_v45 : Ref sig .tc := ⟨.hbm, 78, rfl⟩
abbrev main_cst_12 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_13 : Ref sig .tc := ⟨.hbm, 84, rfl⟩
abbrev main_v50 : Ref sig .tc := ⟨.hbm, 85, rfl⟩
abbrev main_cst_14 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  bcast_S_S4096x4096 : S_.BroadcastsInDim S4096x4096 (![] : Fin 0 → Fin S4096x4096.rank)
  reducesTo_S4096x4096_S_d0_1 : S4096x4096.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.Data.lean ====
/-
  The proof data of the one pallas_call, stated once for the modules that prove the body, the launch and the value.

  The grid is 8 x 8, point t = (i, j) with i = t / 8 and j = t % 8.  Windows 0, 2, 4, 6 stage row tile i of the four
  feature maps, windows 1, 3, 5, 7 row tile j of the same four arrays, window 8 is the output block i, and one scratch
  accumulator is carried from point to point: zeroed at j = 0, increased by the tile pair's partial loss at every point,
  copied into the output block at j = 7.
-/
import proofs.«135397_j31490700214616_1_alg».proof.Proof.Gen.KernelIdeal.Launch
import proofs.«135397_j31490700214616_1_alg».proof.Proof.Gen.KernelIdeal.Skeleton
import proofs.«135397_j31490700214616_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays as the region finds them: the launch memory (no host operation precedes the call) -/

/-- Core `c`'s buffers at launch, as a valuation. -/
abbrev W0 (c : Dev nD) : Valuation τ sig (Elt F) := fun b => m (c, b)
/-- The same read at a TensorCore reference. -/
abbrev V (c : Dev nD) (b : Ref sig .tc) : Buf (Elt F) ((c : Thread nD τ).loc b) := W0 m c (Proc.devRef .tc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The eight input blocks at point `t`, at their literal type: row tile `i` and row tile `j` of each feature map. -/
abbrev xb0 (c : Dev nD) (t : Fin cfg0.N) : Vec F S512x512 .f32 := iblk m c 0 t
abbrev xb1 (c : Dev nD) (t : Fin cfg0.N) : Vec F S512x512 .f32 := iblk m c 1 t
abbrev xb2 (c : Dev nD) (t : Fin cfg0.N) : Vec F S512x512 .f32 := iblk m c 2 t
abbrev xb3 (c : Dev nD) (t : Fin cfg0.N) : Vec F S512x512 .f32 := iblk m c 3 t
abbrev xb4 (c : Dev nD) (t : Fin cfg0.N) : Vec F S512x512 .f32 := iblk m c 4 t
abbrev xb5 (c : Dev nD) (t : Fin cfg0.N) : Vec F S512x512 .f32 := iblk m c 5 t
abbrev xb6 (c : Dev nD) (t : Fin cfg0.N) : Vec F S512x512 .f32 := iblk m c 6 t
abbrev xb7 (c : Dev nD) (t : Fin cfg0.N) : Vec F S512x512 .f32 := iblk m c 7 t

/-! ## What one point does to the accumulator -/

/-- The accumulator after the body, from what it held when the partial loss was added (`s`) and the eight blocks
    `x0 … x7` (windows 0 … 7): `s` plus the tile pair's partial loss, on every lane. -/
def accStep (s : Vec F S8x128 .f32) (x0 x1 x2 x3 x4 x5 x6 x7 : Vec F S512x512 .f32) : Vec F S8x128 .f32 :=
  k0_pay11 (k0_pay5 x2) (k0_pay6 x3) (k0_pay7 x4) (k0_pay8 x5) (k0_pay9 x6 x7) (k0_pay10 (k0_pay3 x0) (k0_pay4 x1)) s

/-- The accumulator after point `n`: started from zero at the points with `j = 0`, else from what the point before left. -/
def accAt (c : Dev nD) : (n : ℕ) → n < cfg0.N → Vec F S8x128 .f32
  | 0, h => accStep (k0_pay2 (F := F)) (xb0 m c ⟨0, h⟩) (xb1 m c ⟨0, h⟩) (xb2 m c ⟨0, h⟩) (xb3 m c ⟨0, h⟩) (xb4 m c ⟨0, h⟩) (xb5 m c ⟨0, h⟩) (xb6 m c ⟨0, h⟩) (xb7 m c ⟨0, h⟩)
  | n + 1, h =>
    accStep (if (n + 1) % 8 = 0 then (k0_pay2 (F := F)) else accAt c n (Nat.lt_of_succ_lt h))
      (xb0 m c ⟨n + 1, h⟩) (xb1 m c ⟨n + 1, h⟩) (xb2 m c ⟨n + 1, h⟩) (xb3 m c ⟨n + 1, h⟩) (xb4 m c ⟨n + 1, h⟩) (xb5 m c ⟨n + 1, h⟩) (xb6 m c ⟨n + 1, h⟩) (xb7 m c ⟨n + 1, h⟩)

/-! ## The body's two conditions, decided over the grid -/

/-- `j = 0`: the accumulator is zeroed first. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)
/-- `j = 7`: the accumulator is copied into the output block. -/
abbrev cond1 (i : grid0.Coords) : Prop := k0_cond2 i = 1#1
theorem hcond1 : ∀ t : Fin cfg0.N, cond1 (grid0.coords t) ↔ t.val % 8 = 7 :=
  (by decide +kernel : ∀ t : Fin grid0.N, cond1 (grid0.coords t) ↔ t.val % 8 = 7)

/-- The inputs are never idle; the output is idle exactly off `j = 7`, and written back exactly at `j = 7`. -/
theorem live_in : ∀ (w : Fin 9), w.val < 8 → ∀ t : Fin cfg0.N, cfg0.idle w (grid0.coords t) = false := by decide +kernel
theorem idle_out : ∀ t : Fin cfg0.N, ¬cond1 (grid0.coords t) → cfg0.idle 8 (grid0.coords t) = true := by decide +kernel
theorem live_out : ∀ t : Fin cfg0.N, cond1 (grid0.coords t) → cfg0.idle 8 (grid0.coords t) = false := by decide +kernel
theorem noflush_out : ∀ t : Fin cfg0.N, ¬cond1 (grid0.coords t) → (cfg0.win 8).flush t = false := by decide +kernel

/-! ## The staging memrefs the pipeline passes at a point, and the scratch -/

abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x8x128 .f32 := win0_8.stage (cfg0.slots t 8)
abbrev hs8 (t : Fin cfg0.N) : (ms8 t).IsWhole := hstage0_8 ((cfg0.slots t 8).cast nbuf0_8)
/-- The accumulator: a whole scoped buffer of the kernel's own. -/
abbrev scM : Memref sig .tc .vmem S8x128 .f32 := Memref.whole cc0_scratch0

/-! ## The invariant and the proof data -/

/-- Before position `n`: at the start the accumulator at anything and the generator register at some state; afterwards the
    accumulator at what the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

/-- The proof data: the arrays as launched; each input's buffer at its block after the body, the output's at the
    accumulator re-shaped; the invariant `PhiS`; each feature map read by two windows, a half share each; nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay1 (accAt m c t.val t.isLt)
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare.left
    | ⟨7, _⟩ => fullShare.right
    | ⟨8, _⟩ => fullShare
  owed _ := 0

/-! ## The host operations after the call -/

/-- What the six host operations after the call make of the output array: entry `(i, 0, 0)` of each block, the eight
    added up from zero, divided by the entry count. -/
def tailVal (o : (⟨S8x8x128, .f32⟩ : BufTy).Contents (Elt F)) : (⟨S_, .f32⟩ : BufTy).Contents (Elt F) :=
  Host.divf (Host.reduceAdd (shapeCast S8 (extractStridedSlice S8x1x1 ![0, 0, 0] o slices_S8x8x128_S8x1x1_0_0_0) shapeCasts_S8x1x1_S8)
      (constant S_ .f32 0x00000000#32) reducesTo_S8_S_d0 h_S_)
    (constant S_ .f32 0x4B800000#32)

end Cert.KernelIdeal.Hand

end
-- ==== Proof.Body.lean ====
/-
  The kernel body at every grid point meets the proof data: from the eight input blocks in their staging buffers and the
  accumulator at what the point before left (at anything before the first point), it leaves the accumulator at
  `accAt`, and at the points with `j = 7` the output's staging buffer at the accumulator re-shaped.

  The body has three control cases by the point's column `j`: at `j = 0` it zeroes the accumulator first, at `j = 7` it
  copies the accumulator into the output block last, and in every case it adds the tile pair's partial loss to the
  accumulator.  Each case is run once on arbitrary whole staging memrefs holding arbitrary blocks (`run_A`, `run_B`,
  `run_C`); a point's column selects the case, the invariant supplies the accumulator's contents, and `accAt`'s
  recursion equation at the point names what the case leaves (`sound_body`).
-/
import proofs.«135397_j31490700214616_1_alg».proof.Proof.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The proof data, read back field by field -/

/-- The proof data's arrays are the launch memory's. -/
theorem A_eq (c : Dev nD) (w : Fin cfg0.W) : (dat m c).A w = V m c (Pipeline.arrRef spec0 w) := by
  dsimp only [dat]

/-- The invariant at a point's start, restated at the point's position. -/
theorem PhiS_castSucc (c : Dev nD) (t : Fin cfg0.N) :
    (dat m c).Φ t.castSucc = PhiS m c t.val (Nat.le_of_lt t.isLt) := by
  dsimp only [dat]; simp only [Fin.coe_castSucc]

/-- What the body leaves, window by window. -/
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = iblk m c 7 t := by dsimp only [dat]
theorem after_8 (c : Dev nD) (t : Fin cfg0.N) : (dat m c).after 8 t = k0_pay1 (accAt m c t.val t.isLt) := by dsimp only [dat]

/-- Each input's current staging buffer holds its block at every point, fetched there or not: unfetched, the block
    index has not moved. -/
theorem before_0 (c : Dev nD) (t : Fin cfg0.N) (d) : (dat m c).before 0 t d = iblk m c 0 t :=
  ((dat m c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat m c).before 1 t d = iblk m c 1 t :=
  ((dat m c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat m c).before 2 t d = iblk m c 2 t :=
  ((dat m c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat m c).before 3 t d = iblk m c 3 t :=
  ((dat m c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat m c).before 4 t d = iblk m c 4 t :=
  ((dat m c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat m c).before 5 t d = iblk m c 5 t :=
  ((dat m c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat m c).before 6 t d = iblk m c 6 t :=
  ((dat m c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat m c).before 7 t d = iblk m c 7 t :=
  ((dat m c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-! ## The invariant, position by position -/

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- What the launch hands the region, with the accumulator as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The accumulator after a point, by the point's column -/

/-- At a point with `j = 0` the accumulator restarts from zero. -/
theorem accAt_reset (c : Dev nD) (t : Fin cfg0.N) (h0 : t.val % 8 = 0) :
    accAt m c t.val t.isLt
      = accStep (k0_pay2 (F := F)) (xb0 m c t) (xb1 m c t) (xb2 m c t) (xb3 m c t) (xb4 m c t) (xb5 m c t) (xb6 m c t) (xb7 m c t) := by
  obtain ⟨n, hn⟩ := t
  cases n with
  | zero => rfl
  | succ n =>
    show accStep (if (n + 1) % 8 = 0 then (k0_pay2 (F := F)) else accAt m c n (Nat.lt_of_succ_lt hn)) _ _ _ _ _ _ _ _ = _
    rw [if_pos h0]

/-- At any other point it continues from what the point before left. -/
theorem accAt_step (c : Dev nD) (t : Fin cfg0.N) (h0 : ¬t.val % 8 = 0) :
    accAt m c t.val t.isLt
      = accStep (accAt m c (t.val - 1) (Nat.lt_of_le_of_lt (Nat.sub_le _ _) t.isLt))
          (xb0 m c t) (xb1 m c t) (xb2 m c t) (xb3 m c t) (xb4 m c t) (xb5 m c t) (xb6 m c t) (xb7 m c t) := by
  obtain ⟨n, hn⟩ := t
  cases n with
  | zero => exact absurd (Nat.zero_mod _) h0
  | succ n =>
    show accStep (if (n + 1) % 8 = 0 then (k0_pay2 (F := F)) else accAt m c n (Nat.lt_of_succ_lt hn)) _ _ _ _ _ _ _ _ = _
    rw [if_neg h0]; rfl

/-! ## The three control cases, each on arbitrary whole memrefs and arbitrary contents

A whole-buffer access goes through the rectangle of the buffer's own sizes at zero offsets: a load through it reads the
contents, a store through it leaves its payload whatever was there, and a load after such a store reads that payload. -/

/-- The zero offsets of a whole-buffer access, however many axes. -/
theorem hz2 : (![0, 0] : Fin 2 → Nat) = fun _ => 0 := by funext a; fin_cases a <;> rfl
theorem hz3 : (![0, 0, 0] : Fin 3 → Nat) = fun _ => 0 := by funext a; fin_cases a <;> rfl

set_option maxHeartbeats 4000000 in
/-- Case `j = 0`.  On whole staging memrefs holding blocks `x0 … x7` and an accumulator at any contents, the body zeroes the
    accumulator, adds the partial loss, and returns the blocks as they were: the accumulator ends at
    `accStep k0_pay2 x0 … x7`.  The output's buffer is not touched. -/
theorem run_A (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x512 .f32) (harg9 : arg9.IsWhole)
    (arg10 : Memref sig .tc .vmem S1x8x128 .f32) (harg10 : arg10.IsWhole) (arg11 : Memref sig .tc .vmem S8x128 .f32) (harg11 : arg11.IsWhole)
    (hc0 : cond0 i) (hc1 : ¬cond1 i) (x0 x1 x2 x3 x4 x5 x6 x7 : Vec F S512x512 .f32) (xs : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare (accStep (k0_pay2 (F := F)) x0 x1 x2 x3 x4 x5 x6 x7)) -∗ K ⟨⟩))
      ⊢ wp frame (wpE (defs₀ (F := F)) Variants.none c none) E (cc0_pgcl_kernel i arg2 harg2 arg3 harg3 arg4 harg4 arg5 harg5 arg6 harg6 arg7 harg7 arg8 harg8 arg9 harg9 arg10 harg10 arg11 harg11) K := by
  simp only [cc0_pgcl_kernel_eq_skeleton]; unfold cc0_pgcl_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg11.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr
  swap; · iexact HS
  ipureintro
  sl_unfold_run_names
  rw [View.read_writes_eq_canon _ _ _ (fun y => ⟨_, List.mem_cons.mpr (Or.inl rfl), View.mem_set_unit_zero (S := S8x128) hz2 inb_S8x128_S8x128_0_0 y⟩),
    View.canon_cons_unit_zero (S := S8x128) hz2]
  simp only [View.readAt_eq_ld, harg2.read_unread, harg3.read_unread, harg4.read_unread, harg5.read_unread, harg6.read_unread,
    harg7.read_unread, harg8.read_unread, harg9.read_unread, harg11.read_unread, View.ld_unit_zero (S := S512x512) hz2,
    View.ld_unit_zero (S := S8x128) hz2, View.readCov_unit_zero (S := S8x128) _ hz2]
  rfl

set_option maxHeartbeats 4000000 in
/-- Case `0 < j < 7`.  The accumulator at `xs` ends at `accStep xs x0 … x7`; the blocks are as they were and the output's
    buffer is not touched. -/
theorem run_B (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x512 .f32) (harg9 : arg9.IsWhole)
    (arg10 : Memref sig .tc .vmem S1x8x128 .f32) (harg10 : arg10.IsWhole) (arg11 : Memref sig .tc .vmem S8x128 .f32) (harg11 : arg11.IsWhole)
    (hc0 : ¬cond0 i) (hc1 : ¬cond1 i) (x0 x1 x2 x3 x4 x5 x6 x7 : Vec F S512x512 .f32) (xs : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare (accStep xs x0 x1 x2 x3 x4 x5 x6 x7)) -∗ K ⟨⟩))
      ⊢ wp frame (wpE (defs₀ (F := F)) Variants.none c none) E (cc0_pgcl_kernel i arg2 harg2 arg3 harg3 arg4 harg4 arg5 harg5 arg6 harg6 arg7 harg7 arg8 harg8 arg9 harg9 arg10 harg10 arg11 harg11) K := by
  simp only [cc0_pgcl_kernel_eq_skeleton]; unfold cc0_pgcl_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg11.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr
  swap; · iexact HS
  ipureintro
  sl_unfold_run_names
  rw [View.read_writes_eq_canon _ _ _ (fun y => ⟨_, List.mem_singleton_self _, View.mem_set_unit_zero (S := S8x128) hz2 inb_S8x128_S8x128_0_0 y⟩),
    View.canon_unit_zero (S := S8x128) hz2]
  simp only [View.readAt_eq_ld, harg2.read_unread, harg3.read_unread, harg4.read_unread, harg5.read_unread, harg6.read_unread,
    harg7.read_unread, harg8.read_unread, harg9.read_unread, harg11.read_unread, View.ld_unit_zero (S := S512x512) hz2,
    View.ld_unit_zero (S := S8x128) hz2, View.readCov_unit_zero (S := S8x128) _ hz2]
  rfl

set_option maxHeartbeats 4000000 in
/-- Case `j = 7`.  The accumulator at `xs` ends at `accStep xs x0 … x7`, and the output's buffer, whatever it held, ends at
    that value re-shaped (`k0_pay1`); the blocks are as they were. -/
theorem run_C (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x512 .f32) (harg9 : arg9.IsWhole)
    (arg10 : Memref sig .tc .vmem S1x8x128 .f32) (harg10 : arg10.IsWhole) (arg11 : Memref sig .tc .vmem S8x128 .f32) (harg11 : arg11.IsWhole)
    (hc0 : ¬cond0 i) (hc1 : cond1 i) (x0 x1 x2 x3 x4 x5 x6 x7 : Vec F S512x512 .f32) (xs : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay1 (accStep xs x0 x1 x2 x3 x4 x5 x6 x7))
            ∗ owns (c : Thread nD τ) arg11 fullShare (accStep xs x0 x1 x2 x3 x4 x5 x6 x7)) -∗ K ⟨⟩))
      ⊢ wp frame (wpE (defs₀ (F := F)) Variants.none c none) E (cc0_pgcl_kernel i arg2 harg2 arg3 harg3 arg4 harg4 arg5 harg5 arg6 harg6 arg7 harg7 arg8 harg8 arg9 harg9 arg10 harg10 arg11 harg11) K := by
  simp only [cc0_pgcl_kernel_eq_skeleton]; unfold cc0_pgcl_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, HO⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg11.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HO]
  · iexists _; isplitr
    swap; · iexact HO
    ipureintro
    sl_unfold_run_names
    rw [View.read_writes_eq_canon _ _ _ (fun y => ⟨_, List.mem_singleton_self _, View.mem_set_unit_zero (S := S1x8x128) hz3 inb_S1x8x128_S1x8x128_0_0_0 y⟩),
      View.canon_unit_zero (S := S1x8x128) hz3]
    simp only [View.readAt_eq_ld, harg2.read_unread, harg3.read_unread, harg4.read_unread, harg5.read_unread, harg6.read_unread,
    harg7.read_unread, harg8.read_unread, harg9.read_unread, harg11.read_unread, View.ld_unit_zero (S := S512x512) hz2,
    View.ld_unit_zero (S := S8x128) hz2, View.readCov_unit_zero (S := S8x128) _ hz2]
    rfl
  iexists _; isplitr
  swap; · iexact HS
  ipureintro
  sl_unfold_run_names
  rw [View.read_writes_eq_canon _ _ _ (fun y => ⟨_, List.mem_singleton_self _, View.mem_set_unit_zero (S := S8x128) hz2 inb_S8x128_S8x128_0_0 y⟩),
    View.canon_unit_zero (S := S8x128) hz2]
  simp only [View.readAt_eq_ld, harg2.read_unread, harg3.read_unread, harg4.read_unread, harg5.read_unread, harg6.read_unread,
    harg7.read_unread, harg8.read_unread, harg9.read_unread, harg11.read_unread, View.ld_unit_zero (S := S512x512) hz2,
    View.ld_unit_zero (S := S8x128) hz2, View.readCov_unit_zero (S := S8x128) _ hz2]
  rfl

/-! ## What the obligation asks of each window's buffer after the body -/

theorem leaves_0 (c : Dev nD) (t : Fin cfg0.N) :
    (dat m c).leavesExact 0 t = owns (c : Thread nD τ) (ms0 t) fullShare (iblk m c 0 t) := by
  unfold Dat.leavesExact; rw [live_in 0 (by decide) t, after_0]
theorem leaves_1 (c : Dev nD) (t : Fin cfg0.N) :
    (dat m c).leavesExact 1 t = owns (c : Thread nD τ) (ms1 t) fullShare (iblk m c 1 t) := by
  unfold Dat.leavesExact; rw [live_in 1 (by decide) t, after_1]
theorem leaves_2 (c : Dev nD) (t : Fin cfg0.N) :
    (dat m c).leavesExact 2 t = owns (c : Thread nD τ) (ms2 t) fullShare (iblk m c 2 t) := by
  unfold Dat.leavesExact; rw [live_in 2 (by decide) t, after_2]
theorem leaves_3 (c : Dev nD) (t : Fin cfg0.N) :
    (dat m c).leavesExact 3 t = owns (c : Thread nD τ) (ms3 t) fullShare (iblk m c 3 t) := by
  unfold Dat.leavesExact; rw [live_in 3 (by decide) t, after_3]
theorem leaves_4 (c : Dev nD) (t : Fin cfg0.N) :
    (dat m c).leavesExact 4 t = owns (c : Thread nD τ) (ms4 t) fullShare (iblk m c 4 t) := by
  unfold Dat.leavesExact; rw [live_in 4 (by decide) t, after_4]
theorem leaves_5 (c : Dev nD) (t : Fin cfg0.N) :
    (dat m c).leavesExact 5 t = owns (c : Thread nD τ) (ms5 t) fullShare (iblk m c 5 t) := by
  unfold Dat.leavesExact; rw [live_in 5 (by decide) t, after_5]
theorem leaves_6 (c : Dev nD) (t : Fin cfg0.N) :
    (dat m c).leavesExact 6 t = owns (c : Thread nD τ) (ms6 t) fullShare (iblk m c 6 t) := by
  unfold Dat.leavesExact; rw [live_in 6 (by decide) t, after_6]
theorem leaves_7 (c : Dev nD) (t : Fin cfg0.N) :
    (dat m c).leavesExact 7 t = owns (c : Thread nD τ) (ms7 t) fullShare (iblk m c 7 t) := by
  unfold Dat.leavesExact; rw [live_in 7 (by decide) t, after_7]

/-- At `j = 7` the output's buffer is left at the accumulator re-shaped; -/
theorem leaves_8_live (c : Dev nD) (t : Fin cfg0.N) (h : cond1 (grid0.coords t)) :
    (dat m c).leavesExact 8 t = owns (c : Thread nD τ) (ms8 t) fullShare (k0_pay1 (accAt m c t.val t.isLt)) := by
  unfold Dat.leavesExact; rw [live_out t h, after_8]

/-- elsewhere it is left as found. -/
theorem leaves_8_idle (c : Dev nD) (t : Fin cfg0.N) (h : ¬cond1 (grid0.coords t)) :
    (dat m c).leavesExact 8 t = iprop(∃ d, owns (c : Thread nD τ) (ms8 t) fullShare ((dat m c).before 8 t d)) :=
  Dat.leavesExact_idle (dat m c) 8 t (idle_out t h) (noflush_out t h)

/-! ## The body obligation, at a generic point -/

/-- What the body is called with at point `t`, the windows one by one, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d))
    ∗ (∃ d, owns (c : Thread nD τ) (ms6 t) fullShare ((dat m c).before 6 t d))
    ∗ (∃ d, owns (c : Thread nD τ) (ms7 t) fullShare ((dat m c).before 7 t d))
    ∗ (∃ d, owns (c : Thread nD τ) (ms8 t) fullShare ((dat m c).before 8 t d)))

/-- and what it returns. -/
def bodyPost (c : Dev nD) (t : Fin cfg0.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t
    ∗ (dat m c).leavesExact 5 t
    ∗ (dat m c).leavesExact 6 t
    ∗ (dat m c).leavesExact 7 t
    ∗ (dat m c).leavesExact 8 t)

set_option maxHeartbeats 4800000 in
/-- The body at any point: the inputs' buffers hold their blocks; the point's column says which case it is in; the invariant
    hands the body the accumulator at what the point before left (at anything before the first point) and takes it back at
    this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dat m c).owesAt () t.succ = (dat m c).owesAt () t.castSucc from rfl]
  rw [show (dat m c).Φ t.succ = PhiS m c (t.val + 1) t.isLt from rfl, PhiS_succ]
  rw [leaves_0, leaves_1, leaves_2, leaves_3, leaves_4, leaves_5, leaves_6, leaves_7]
  by_cases h0 : t.val % 8 = 0
  · have hc0 : cond0 (grid0.coords t) := (hcond0 t).mpr h0
    have hc1 : ¬cond1 (grid0.coords t) := fun h => by have := (hcond1 t).mp h; omega
    rw [leaves_8_idle m c t hc1, accAt_reset m c t h0]
    by_cases hz : t.val = 0
    · rw [PhiS_castSucc m c t, PhiS_zero m c _ _ hz, PhiA0_eq]
      iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (xb0 m c t) (xb1 m c t) (xb2 m c t) (xb3 m c t) (xb4 m c t) (xb5 m c t) (xb6 m c t) (xb7 m c t) ds Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (xb0 m c t) (xb1 m c t) (xb2 m c t) (xb3 m c t) (xb4 m c t) (xb5 m c t) (xb6 m c t) (xb7 m c t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hc0 : ¬cond0 (grid0.coords t) := fun h => h0 ((hcond0 t).mp h)
    have hz : t.val ≠ 0 := fun e => h0 (by rw [e])
    rw [accAt_step m c t h0, PhiS_castSucc m c t, PhiS_pos m c _ _ hz]
    by_cases h1 : t.val % 8 = 7
    · have hc1 : cond1 (grid0.coords t) := (hcond1 t).mpr h1
      rw [leaves_8_live m c t hc1, accAt_step m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (xb0 m c t) (xb1 m c t) (xb2 m c t) (xb3 m c t) (xb4 m c t) (xb5 m c t) (xb6 m c t) (xb7 m c t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond1 (grid0.coords t) := fun h => h1 ((hcond1 t).mp h)
      rw [leaves_8_idle m c t hc1]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (xb0 m c t) (xb1 m c t) (xb2 m c t) (xb3 m c t) (xb4 m c t) (xb5 m c t) (xb6 m c t) (xb7 m c t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation (c : Dev nD) : BodyObligation (dat (F := F) m c) (defs₀ (F := F)) Variants.none () Set.univ := fun t => by
  rw [bigSep_W0, bigSep_W0]
  exact sound_body m c t

end Cert.KernelIdeal.Hand

end
-- ==== Proof.Run.lean ====
/-
  The launch: @main is the pallas_call followed by six host operations.  Each feature map is handed to the call twice, so
  its buffer's full share is dealt in halves to the two windows that read it, and joined again when the call returns.
-/
import proofs.«135397_j31490700214616_1_alg».proof.Proof.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers behind the windows, and the windows' shares of them -/

/-- The five buffers behind the nine windows, each whole at the full share. -/
theorem arrBufs_eq (c : Dev nD) (V' : (b : Ref sig .tc) → Buf (Elt F) ((c : Thread nD τ).loc b)) :
    (Pipeline.arrBufs spec0 c V' : sProp 𝕄)
      = iprop((((c : Thread nD τ).loc main_arg0) ↦{fullShare} V' main_arg0) ∗ (((c : Thread nD τ).loc main_arg1) ↦{fullShare} V' main_arg1)
          ∗ (((c : Thread nD τ).loc main_arg2) ↦{fullShare} V' main_arg2) ∗ (((c : Thread nD τ).loc main_arg3) ↦{fullShare} V' main_arg3)
          ∗ (((c : Thread nD τ).loc main_v0) ↦{fullShare} V' main_v0)) := by
  unfold Pipeline.arrBufs
  rw [bigSep_eq_bigSepL_of_eq [main_arg0, main_arg1, main_arg2, main_arg3, main_v0] (by decide) (by decide)]
  rfl

/-- The nine windows' arrays at contents `G`: each feature map's buffer twice, at the left and the right half of the full
    share, and the output's buffer at the full share. -/
theorem arrays_eq' (c : Dev nD) (G : (w : Fin cfg0.W) → Buf (Elt F) ((cfg0.win w).arr.view.loc (c : Thread nD τ))) :
    ((dat m c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_arg2) ↦{fullShare.left} G 4) ∗ (((c : Thread nD τ).loc main_arg2) ↦{fullShare.right} G 5)
          ∗ (((c : Thread nD τ).loc main_arg3) ↦{fullShare.left} G 6) ∗ (((c : Thread nD τ).loc main_arg3) ↦{fullShare.right} G 7)
          ∗ (((c : Thread nD τ).loc main_v0) ↦{fullShare} G 8)) := by
  unfold Pipeline.Dat.arrays
  rw [bigSep_W0]
  have s0 : (dat m c).share 0 = fullShare.left := rfl
  have s1 : (dat m c).share 1 = fullShare.right := rfl
  have s2 : (dat m c).share 2 = fullShare.left := rfl
  have s3 : (dat m c).share 3 = fullShare.right := rfl
  have s4 : (dat m c).share 4 = fullShare.left := rfl
  have s5 : (dat m c).share 5 = fullShare.right := rfl
  have s6 : (dat m c).share 6 = fullShare.left := rfl
  have s7 : (dat m c).share 7 = fullShare.right := rfl
  have s8 : (dat m c).share 8 = fullShare := rfl
  simp only [s0, s1, s2, s3, s4, s5, s6, s7, s8, View.set_whole]

/-- A buffer's full share is its two halves. -/
theorem halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-! ## The contents when the call returns -/

/-- Core `c`'s buffers when the call returns: the output array at what the write-backs leave, every other buffer as
    launched. -/
def W1 (c : Dev nD) : Valuation τ sig (Elt F) :=
  Function.update (W0 m c) (Proc.devRef .tc main_v0) ((dat m c).arrAt 8 cfg0.N)
/-- The same read at a TensorCore reference. -/
abbrev V1 (c : Dev nD) (b : Ref sig .tc) : Buf (Elt F) ((c : Thread nD τ).loc b) := W1 m c (Proc.devRef .tc b)

theorem W1_out (c : Dev nD) : W1 m c (Proc.devRef .tc main_v0) = (dat m c).arrAt 8 cfg0.N := by
  unfold W1; exact Function.update_self ..
theorem W1_of_ne (c : Dev nD) (b : Ref sig .tc) (h : b ≠ main_v0) : W1 m c (Proc.devRef .tc b) = W0 m c (Proc.devRef .tc b) := by
  unfold W1; exact Function.update_of_ne (StableHlo.devRef_ne_of_ne h) ..

/-! ## Entry and exit: the unscoped buffers dealt to the windows, and gathered again -/

/-- ENTRY: the launch's unscoped buffers are the windows' arrays at their entry contents — each feature map's buffer
    halved between its two windows — and the buffers no window reads. -/
theorem entry_split (c : Dev nD) :
    (StableHlo.held (c : Thread nD τ) (Pipeline.ucRefs τ sig) (W0 m c) : sProp 𝕄)
      ⊢ iprop((dat m c).arrays ((dat m c).arrAt · 0) ∗ Pipeline.unscopedRest spec0 c (V m c)) := by
  have hs : (unscopedBufs c (V m c) : sProp 𝕄) = iprop(Pipeline.arrBufs spec0 c (V m c) ∗ Pipeline.unscopedRest spec0 c (V m c)) :=
    Pipeline.unscopedBufs_split₀ cfgs 0 winFacts₀0.arr_unscoped c (V m c)
  rw [← Pipeline.unscopedBufs_held c (W0 m c), hs, arrBufs_eq, arrays_eq']
  iintro ⟨⟨H0, H1, H2, H3, H8⟩, Hrest⟩
  ihave H0 := (halves _).1 $$ H0
  ihave H1 := (halves _).1 $$ H1
  ihave H2 := (halves _).1 $$ H2
  ihave H3 := (halves _).1 $$ H3
  icases H0 with ⟨H0l, H0r⟩
  icases H1 with ⟨H1l, H1r⟩
  icases H2 with ⟨H2l, H2r⟩
  icases H3 with ⟨H3l, H3r⟩
  isplitr [Hrest]
  swap; · iexact Hrest
  isplitl [H0l]; · iexact H0l
  isplitl [H0r]; · iexact H0r
  isplitl [H1l]; · iexact H1l
  isplitl [H1r]; · iexact H1r
  isplitl [H2l]; · iexact H2l
  isplitl [H2r]; · iexact H2r
  isplitl [H3l]; · iexact H3l
  isplitl [H3r]; · iexact H3r
  iexact H8

/-- EXIT: the windows' arrays at what the call leaves — an input's as at entry, so that a feature map's two halves agree and
    join — and the buffers no window reads are the unscoped buffers at the exit contents. -/
theorem exit_join (c : Dev nD) :
    iprop((dat m c).arrays ((dat m c).arrAt · cfg0.N) ∗ Pipeline.unscopedRest spec0 c (V m c))
      ⊢ (StableHlo.held (c : Thread nD τ) (Pipeline.ucRefs τ sig) (W1 m c) : sProp 𝕄) := by
  have hs : (unscopedBufs c (V1 m c) : sProp 𝕄) = iprop(Pipeline.arrBufs spec0 c (V1 m c) ∗ Pipeline.unscopedRest spec0 c (V1 m c)) :=
    Pipeline.unscopedBufs_split₀ cfgs 0 winFacts₀0.arr_unscoped c (V1 m c)
  have hrest : (Pipeline.unscopedRest spec0 c (V1 m c) : sProp 𝕄) = Pipeline.unscopedRest spec0 c (V m c) := by
    rw [unscopedRest0_eq, unscopedRest0_eq]
    simp only [V1, W1_of_ne m c main_v1 (by decide), W1_of_ne m c main_v2 (by decide), W1_of_ne m c main_cst (by decide),
      W1_of_ne m c main_v3 (by decide), W1_of_ne m c main_cst_0 (by decide), W1_of_ne m c main_v4 (by decide)]
  have h0 : (dat m c).arrAt 0 cfg0.N = V1 m c main_arg0 := ((dat m c).arrAt_in 0 rfl _).trans (W1_of_ne m c main_arg0 (by decide)).symm
  have h1 : (dat m c).arrAt 1 cfg0.N = V1 m c main_arg0 := ((dat m c).arrAt_in 1 rfl _).trans (W1_of_ne m c main_arg0 (by decide)).symm
  have h2 : (dat m c).arrAt 2 cfg0.N = V1 m c main_arg1 := ((dat m c).arrAt_in 2 rfl _).trans (W1_of_ne m c main_arg1 (by decide)).symm
  have h3 : (dat m c).arrAt 3 cfg0.N = V1 m c main_arg1 := ((dat m c).arrAt_in 3 rfl _).trans (W1_of_ne m c main_arg1 (by decide)).symm
  have h4 : (dat m c).arrAt 4 cfg0.N = V1 m c main_arg2 := ((dat m c).arrAt_in 4 rfl _).trans (W1_of_ne m c main_arg2 (by decide)).symm
  have h5 : (dat m c).arrAt 5 cfg0.N = V1 m c main_arg2 := ((dat m c).arrAt_in 5 rfl _).trans (W1_of_ne m c main_arg2 (by decide)).symm
  have h6 : (dat m c).arrAt 6 cfg0.N = V1 m c main_arg3 := ((dat m c).arrAt_in 6 rfl _).trans (W1_of_ne m c main_arg3 (by decide)).symm
  have h7 : (dat m c).arrAt 7 cfg0.N = V1 m c main_arg3 := ((dat m c).arrAt_in 7 rfl _).trans (W1_of_ne m c main_arg3 (by decide)).symm
  have h8 : (dat m c).arrAt 8 cfg0.N = V1 m c main_v0 := (W1_out m c).symm
  rw [← Pipeline.unscopedBufs_held c (W1 m c), hs, hrest, arrBufs_eq, arrays_eq', h0, h1, h2, h3, h4, h5, h6, h7, h8]
  iintro ⟨⟨H0l, H0r, H1l, H1r, H2l, H2r, H3l, H3r, H8⟩, Hrest⟩
  isplitr [Hrest]
  swap; · iexact Hrest
  isplitl [H0l H0r]
  · iapply (halves _).2; isplitl [H0l] <;> iassumption
  isplitl [H1l H1r]
  · iapply (halves _).2; isplitl [H1l] <;> iassumption
  isplitl [H2l H2r]
  · iapply (halves _).2; isplitl [H2l] <;> iassumption
  isplitl [H3l H3r]
  · iapply (halves _).2; isplitl [H3l] <;> iassumption
  iexact H8

/-! ## The invariant after the last point gives the scratch back -/

/-- After any point the invariant gives back the generator register and the scratch buffer at some contents: what the
    accumulator holds is forgotten. -/
theorem PhiS_out (c : Dev nD) : ∀ (n : ℕ) (h : n ≤ cfg0.N), n ≠ 0 →
    PhiS m c n h ⊢ iprop((∃ r, prngReg c r) ∗ (BI.emp : sProp 𝕄) ∗ Pipeline.scopedRest spec0 c)
  | 0, _, h0 => absurd rfl h0
  | n + 1, h, _ => by
    rw [scopedRest0_eq, show PhiS m c (n + 1) h
      = iprop(iprop(owns (c : Thread nD τ) scM fullShare (accAt m c n h)) ∗ (∃ r, prngReg c r)) from rfl]
    simp only [scM, owns_whole]
    iintro ⟨Hs, Hr⟩
    isplitl [Hr]; · iexact Hr
    isplitr; · iempintro
    iexists _; iexact Hs

/-! ## The proof data family and the thread state -/

/-- The prefetched tables' admissible contents: the pipeline has no table. -/
abbrev adm : (p : Fin 1) → (pcfgs (F := F) p).Adm := fun p => (cfgs p).toPCfg_adm
/-- The one pipeline's proof data. -/
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both segments: the core's generator register at some state and its `owes`, at
    nothing. -/
abbrev R (c : Dev nD) : sProp 𝕄 := iprop((∃ r, prngReg c r) ∗ ∃ W, owes (c : Thread nD τ) (0 : CellTallies nD τ sig Unit) W)

/-- No host operation allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations as a segment: run from the unscoped buffers at the call's exit contents, `R` riding along. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

/-- The buffers after the host operations. -/
abbrev W2 (c : Dev nD) : Valuation τ sig (Elt F) := StableHlo.after hostOps1 (W1 m c)
/-- The last thread state without the `owes`: every unscoped buffer at the last contents, the generator register at some
    state. -/
abbrev Tₙ (c : Dev nD) : sProp 𝕄 := iprop(StableHlo.held (c : Thread nD τ) (Pipeline.ucRefs τ sig) (W2 m c) ∗ ∃ r, prngReg c r)

/-! ## The call as a segment -/

set_option backward.isDefEq.respectTransparency.types false in
/-- The pallas_call over the thread state: entered from every unscoped buffer as launched, left at the exit contents. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    iintro ⟨⟨Hub, Hp, HO⟩, -, -⟩
    ihave H := (entry_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact PhiS_out m c (Fin.last cfg0.N).val (Nat.le_of_lt_succ (Fin.last cfg0.N).isLt)
      (by rw [Fin.val_last]; have : cfg0.N = 64 := N_0; omega)
  hexit c := by
    iintro ⟨Ha, HO, HY, Hrest⟩
    imodintro
    isplitl [Ha Hrest]
    · iapply (exit_join m c)
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's two segments: the call, then the host operations. -/
abbrev segs : List (Pipeline.Seg (pcfgs (F := F)) adm (pdats m) () defs₀ 𝒱₀ L lv) :=
  [ .region (reg0 m), .host (hseg1 m) ]
/-- @main is the run of the segments. -/
theorem main_run (c : Dev nD) : main (F := F) c = Pipeline.Seg.run (segs m) := (main_chain c).trans (by chain_rfl)

/-! ## What the last contents hold -/

/-- The result buffer after the host operations: their value of the output array as the call leaves it. -/
theorem W2_main_v4 (c : Dev nD) : W2 m c (Proc.devRef .tc main_v4) = tailVal ((dat m c).arrAt 8 cfg0.N) := by
  unfold W2 tailVal
  after_results
  rw [W1_out]
  rfl

/-- No host operation writes an argument array, and the call leaves it as launched. -/
theorem W2_arg (c : Dev nD) (b : Ref sig .tc) (hb : b ≠ main_v0) (h1 : b ≠ main_v1) (h2 : b ≠ main_v2) (h3 : b ≠ main_cst)
    (h4 : b ≠ main_v3) (h5 : b ≠ main_cst_0) (h6 : b ≠ main_v4) :
    W2 m c (Proc.devRef .tc b) = m ((c : Thread nD τ).loc b) :=
  calc W2 m c (Proc.devRef .tc b)
    _ = W1 m c (Proc.devRef .tc b) := StableHlo.after_of_forall_not_mem (b := Proc.devRef .tc b) _ _ (List.forall_iff_forall_mem.mp (by
          simp only [hostOps1, List.Forall, StableHlo.nullary_writes, StableHlo.unary_writes, StableHlo.binary_writes, StableHlo.reshape_writes, Finset.mem_singleton]
          exact ⟨StableHlo.devRef_ne_of_ne h1, StableHlo.devRef_ne_of_ne h2, StableHlo.devRef_ne_of_ne h3, StableHlo.devRef_ne_of_ne h4,
            StableHlo.devRef_ne_of_ne h5, StableHlo.devRef_ne_of_ne h6⟩))
    _ = W0 m c (Proc.devRef .tc b) := W1_of_ne m c b hb
    _ = m ((c : Thread nD τ).loc b) := rfl

set_option backward.isDefEq.respectTransparency.types false in
/-- Every weakly fair execution of @main terminates, nothing faulting; the result buffer ends at the host operations'
    value of the output array as the call's write-backs leave it, and the four argument arrays end unchanged. -/
theorem run_main (ρ : Dev nD → PrngReg) :
    θ_run defs (onTc (τ := τ) (main (F := F))) ⟨m, fun _ => 0, ρ⟩ (fun r => ∀ c : Dev nD,
      r.2.mem ((c.tc : Thread nD τ).loc main_v4) = tailVal ((dat m c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun c =>
      (show iprop(StableHlo.held (c : Thread nD τ) (Pipeline.ucRefs τ sig) (W2 m c) ∗ R c)
          ⊢ iprop(Tₙ m c ∗ ∃ W, owes (c : Thread nD τ) (0 : CellTallies nD τ sig Unit) W) from by
        iintro ⟨Hh, Hp, HO⟩
        isplitr [HO]
        swap; · iexact HO
        isplitl [Hh]; · iexact Hh
        iexact Hp)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v4 (by decide))).trans (W2_main_v4 m c),
       (h c _ (mem_uc main_arg0 (by decide))).trans (W2_arg m c main_arg0 (by decide) (by decide) (by decide) (by decide) (by decide) (by decide) (by decide)),
       (h c _ (mem_uc main_arg1 (by decide))).trans (W2_arg m c main_arg1 (by decide) (by decide) (by decide) (by decide) (by decide) (by decide) (by decide)),
       (h c _ (mem_uc main_arg2 (by decide))).trans (W2_arg m c main_arg2 (by decide) (by decide) (by decide) (by decide) (by decide) (by decide) (by decide)),
       (h c _ (mem_uc main_arg3 (by decide))).trans (W2_arg m c main_arg3 (by decide) (by decide) (by decide) (by decide) (by decide) (by decide) (by decide))⟩)

end Cert.KernelIdeal.Hand

end
-- ==== Proof.DataB.lean ====
/-
  The proof data of the one pallas_call, stated once for the modules that prove the body, the launch and the value.

  The grid is 8 x 8, point t = (i, j) with i = t / 8 and j = t % 8.  Windows 0, 2, 4, 6 stage row tile i of the four
  feature maps, windows 1, 3, 5, 7 row tile j of the same four arrays, window 8 is the output block i, and one scratch
  accumulator is carried from point to point: zeroed at j = 0, increased by the tile pair's partial loss at every point,
  copied into the output block at j = 7.
-/
import proofs.«135397_j31490700214616_1_alg».proof.Proof.Gen.Kernel.Launch
import proofs.«135397_j31490700214616_1_alg».proof.Proof.Gen.Kernel.Skeleton
import proofs.«135397_j31490700214616_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arrays as the region finds them: the launch memory (no host operation precedes the call) -/

/-- Core `c`'s buffers at launch, as a valuation. -/
abbrev W0 (c : Dev nD) : Valuation τ sig (Elt F) := fun b => m (c, b)
/-- The same read at a TensorCore reference. -/
abbrev V (c : Dev nD) (b : Ref sig .tc) : Buf (Elt F) ((c : Thread nD τ).loc b) := W0 m c (Proc.devRef .tc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The eight input blocks at point `t`, at their literal type: row tile `i` and row tile `j` of each feature map. -/
abbrev xb0 (c : Dev nD) (t : Fin cfg0.N) : Vec F S512x512 .f32 := iblk m c 0 t
abbrev xb1 (c : Dev nD) (t : Fin cfg0.N) : Vec F S512x512 .f32 := iblk m c 1 t
abbrev xb2 (c : Dev nD) (t : Fin cfg0.N) : Vec F S512x512 .f32 := iblk m c 2 t
abbrev xb3 (c : Dev nD) (t : Fin cfg0.N) : Vec F S512x512 .f32 := iblk m c 3 t
abbrev xb4 (c : Dev nD) (t : Fin cfg0.N) : Vec F S512x512 .f32 := iblk m c 4 t
abbrev xb5 (c : Dev nD) (t : Fin cfg0.N) : Vec F S512x512 .f32 := iblk m c 5 t
abbrev xb6 (c : Dev nD) (t : Fin cfg0.N) : Vec F S512x512 .f32 := iblk m c 6 t
abbrev xb7 (c : Dev nD) (t : Fin cfg0.N) : Vec F S512x512 .f32 := iblk m c 7 t

/-! ## What one point does to the accumulator -/

/-- The accumulator after the body, from what it held when the partial loss was added (`s`) and the eight blocks
    `x0 … x7` (windows 0 … 7): `s` plus the tile pair's partial loss, on every lane. -/
def accStep (s : Vec F S8x128 .f32) (x0 x1 x2 x3 x4 x5 x6 x7 : Vec F S512x512 .f32) : Vec F S8x128 .f32 :=
  k0_pay11 (k0_pay5 x2) (k0_pay6 x3) (k0_pay7 x4) (k0_pay8 x5) (k0_pay9 x6 x7) (k0_pay10 (k0_pay3 x0) (k0_pay4 x1)) s

/-- The accumulator after point `n`: started from zero at the points with `j = 0`, else from what the point before left. -/
def accAt (c : Dev nD) : (n : ℕ) → n < cfg0.N → Vec F S8x128 .f32
  | 0, h => accStep (k0_pay2 (F := F)) (xb0 m c ⟨0, h⟩) (xb1 m c ⟨0, h⟩) (xb2 m c ⟨0, h⟩) (xb3 m c ⟨0, h⟩) (xb4 m c ⟨0, h⟩) (xb5 m c ⟨0, h⟩) (xb6 m c ⟨0, h⟩) (xb7 m c ⟨0, h⟩)
  | n + 1, h =>
    accStep (if (n + 1) % 8 = 0 then (k0_pay2 (F := F)) else accAt c n (Nat.lt_of_succ_lt h))
      (xb0 m c ⟨n + 1, h⟩) (xb1 m c ⟨n + 1, h⟩) (xb2 m c ⟨n + 1, h⟩) (xb3 m c ⟨n + 1, h⟩) (xb4 m c ⟨n + 1, h⟩) (xb5 m c ⟨n + 1, h⟩) (xb6 m c ⟨n + 1, h⟩) (xb7 m c ⟨n + 1, h⟩)

/-! ## The body's two conditions, decided over the grid -/

/-- `j = 0`: the accumulator is zeroed first. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)
/-- `j = 7`: the accumulator is copied into the output block. -/
abbrev cond1 (i : grid0.Coords) : Prop := k0_cond2 i = 1#1
theorem hcond1 : ∀ t : Fin cfg0.N, cond1 (grid0.coords t) ↔ t.val % 8 = 7 :=
  (by decide +kernel : ∀ t : Fin grid0.N, cond1 (grid0.coords t) ↔ t.val % 8 = 7)

/-- The inputs are never idle; the output is idle exactly off `j = 7`, and written back exactly at `j = 7`. -/
theorem live_in : ∀ (w : Fin 9), w.val < 8 → ∀ t : Fin cfg0.N, cfg0.idle w (grid0.coords t) = false := by decide +kernel
theorem idle_out : ∀ t : Fin cfg0.N, ¬cond1 (grid0.coords t) → cfg0.idle 8 (grid0.coords t) = true := by decide +kernel
theorem live_out : ∀ t : Fin cfg0.N, cond1 (grid0.coords t) → cfg0.idle 8 (grid0.coords t) = false := by decide +kernel
theorem noflush_out : ∀ t : Fin cfg0.N, ¬cond1 (grid0.coords t) → (cfg0.win 8).flush t = false := by decide +kernel

/-! ## The staging memrefs the pipeline passes at a point, and the scratch -/

abbrev ms0 (t : Fin cfg0.N) : Memref sig .tc .vmem S512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x8x128 .f32 := win0_8.stage (cfg0.slots t 8)
abbrev hs8 (t : Fin cfg0.N) : (ms8 t).IsWhole := hstage0_8 ((cfg0.slots t 8).cast nbuf0_8)
/-- The accumulator: a whole scoped buffer of the kernel's own. -/
abbrev scM : Memref sig .tc .vmem S8x128 .f32 := Memref.whole cc0_scratch0

/-! ## The invariant and the proof data -/

/-- Before position `n`: at the start the accumulator at anything and the generator register at some state; afterwards the
    accumulator at what the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

/-- The proof data: the arrays as launched; each input's buffer at its block after the body, the output's at the
    accumulator re-shaped; the invariant `PhiS`; each feature map read by two windows, a half share each; nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay1 (accAt m c t.val t.isLt)
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare.left
    | ⟨7, _⟩ => fullShare.right
    | ⟨8, _⟩ => fullShare
  owed _ := 0

/-! ## The host operations after the call -/

/-- What the six host operations after the call make of the output array: entry `(i, 0, 0)` of each block, the eight
    added up from zero, divided by the entry count. -/
def tailVal (o : (⟨S8x8x128, .f32⟩ : BufTy).Contents (Elt F)) : (⟨S_, .f32⟩ : BufTy).Contents (Elt F) :=
  Host.divf (Host.reduceAdd (shapeCast S8 (extractStridedSlice S8x1x1 ![0, 0, 0] o slices_S8x8x128_S8x1x1_0_0_0) shapeCasts_S8x1x1_S8)
      (constant S_ .f32 0x00000000#32) reducesTo_S8_S_d0 h_S_)
    (constant S_ .f32 0x4B800000#32)

end Cert.Kernel.Hand

end
-- ==== Proof.BodyB.lean ====
/-
  The kernel body at every grid point meets the proof data: from the eight input blocks in their staging buffers and the
  accumulator at what the point before left (at anything before the first point), it leaves the accumulator at
  `accAt`, and at the points with `j = 7` the output's staging buffer at the accumulator re-shaped.

  The body has three control cases by the point's column `j`: at `j = 0` it zeroes the accumulator first, at `j = 7` it
  copies the accumulator into the output block last, and in every case it adds the tile pair's partial loss to the
  accumulator.  Each case is run once on arbitrary whole staging memrefs holding arbitrary blocks (`run_A`, `run_B`,
  `run_C`); a point's column selects the case, the invariant supplies the accumulator's contents, and `accAt`'s
  recursion equation at the point names what the case leaves (`sound_body`).
-/
import proofs.«135397_j31490700214616_1_alg».proof.Proof.DataB
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The proof data, read back field by field -/

/-- The proof data's arrays are the launch memory's. -/
theorem A_eq (c : Dev nD) (w : Fin cfg0.W) : (dat m c).A w = V m c (Pipeline.arrRef spec0 w) := by
  dsimp only [dat]

/-- The invariant at a point's start, restated at the point's position. -/
theorem PhiS_castSucc (c : Dev nD) (t : Fin cfg0.N) :
    (dat m c).Φ t.castSucc = PhiS m c t.val (Nat.le_of_lt t.isLt) := by
  dsimp only [dat]; simp only [Fin.coe_castSucc]

/-- What the body leaves, window by window. -/
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = iblk m c 7 t := by dsimp only [dat]
theorem after_8 (c : Dev nD) (t : Fin cfg0.N) : (dat m c).after 8 t = k0_pay1 (accAt m c t.val t.isLt) := by dsimp only [dat]

/-- Each input's current staging buffer holds its block at every point, fetched there or not: unfetched, the block
    index has not moved. -/
theorem before_0 (c : Dev nD) (t : Fin cfg0.N) (d) : (dat m c).before 0 t d = iblk m c 0 t :=
  ((dat m c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat m c).before 1 t d = iblk m c 1 t :=
  ((dat m c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat m c).before 2 t d = iblk m c 2 t :=
  ((dat m c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat m c).before 3 t d = iblk m c 3 t :=
  ((dat m c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat m c).before 4 t d = iblk m c 4 t :=
  ((dat m c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat m c).before 5 t d = iblk m c 5 t :=
  ((dat m c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat m c).before 6 t d = iblk m c 6 t :=
  ((dat m c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat m c).before 7 t d = iblk m c 7 t :=
  ((dat m c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-! ## The invariant, position by position -/

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- What the launch hands the region, with the accumulator as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The accumulator after a point, by the point's column -/

/-- At a point with `j = 0` the accumulator restarts from zero. -/
theorem accAt_reset (c : Dev nD) (t : Fin cfg0.N) (h0 : t.val % 8 = 0) :
    accAt m c t.val t.isLt
      = accStep (k0_pay2 (F := F)) (xb0 m c t) (xb1 m c t) (xb2 m c t) (xb3 m c t) (xb4 m c t) (xb5 m c t) (xb6 m c t) (xb7 m c t) := by
  obtain ⟨n, hn⟩ := t
  cases n with
  | zero => rfl
  | succ n =>
    show accStep (if (n + 1) % 8 = 0 then (k0_pay2 (F := F)) else accAt m c n (Nat.lt_of_succ_lt hn)) _ _ _ _ _ _ _ _ = _
    rw [if_pos h0]

/-- At any other point it continues from what the point before left. -/
theorem accAt_step (c : Dev nD) (t : Fin cfg0.N) (h0 : ¬t.val % 8 = 0) :
    accAt m c t.val t.isLt
      = accStep (accAt m c (t.val - 1) (Nat.lt_of_le_of_lt (Nat.sub_le _ _) t.isLt))
          (xb0 m c t) (xb1 m c t) (xb2 m c t) (xb3 m c t) (xb4 m c t) (xb5 m c t) (xb6 m c t) (xb7 m c t) := by
  obtain ⟨n, hn⟩ := t
  cases n with
  | zero => exact absurd (Nat.zero_mod _) h0
  | succ n =>
    show accStep (if (n + 1) % 8 = 0 then (k0_pay2 (F := F)) else accAt m c n (Nat.lt_of_succ_lt hn)) _ _ _ _ _ _ _ _ = _
    rw [if_neg h0]; rfl

/-! ## The three control cases, each on arbitrary whole memrefs and arbitrary contents

A whole-buffer access goes through the rectangle of the buffer's own sizes at zero offsets: a load through it reads the
contents, a store through it leaves its payload whatever was there, and a load after such a store reads that payload. -/

/-- The zero offsets of a whole-buffer access, however many axes. -/
theorem hz2 : (![0, 0] : Fin 2 → Nat) = fun _ => 0 := by funext a; fin_cases a <;> rfl
theorem hz3 : (![0, 0, 0] : Fin 3 → Nat) = fun _ => 0 := by funext a; fin_cases a <;> rfl

set_option maxHeartbeats 4000000 in
/-- Case `j = 0`.  On whole staging memrefs holding blocks `x0 … x7` and an accumulator at any contents, the body zeroes the
    accumulator, adds the partial loss, and returns the blocks as they were: the accumulator ends at
    `accStep k0_pay2 x0 … x7`.  The output's buffer is not touched. -/
theorem run_A (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x512 .f32) (harg9 : arg9.IsWhole)
    (arg10 : Memref sig .tc .vmem S1x8x128 .f32) (harg10 : arg10.IsWhole) (arg11 : Memref sig .tc .vmem S8x128 .f32) (harg11 : arg11.IsWhole)
    (hc0 : cond0 i) (hc1 : ¬cond1 i) (x0 x1 x2 x3 x4 x5 x6 x7 : Vec F S512x512 .f32) (xs : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare (accStep (k0_pay2 (F := F)) x0 x1 x2 x3 x4 x5 x6 x7)) -∗ K ⟨⟩))
      ⊢ wp frame (wpE (defs₀ (F := F)) Variants.none c none) E (cc0_pgcl_kernel i arg2 harg2 arg3 harg3 arg4 harg4 arg5 harg5 arg6 harg6 arg7 harg7 arg8 harg8 arg9 harg9 arg10 harg10 arg11 harg11) K := by
  simp only [cc0_pgcl_kernel_eq_skeleton]; unfold cc0_pgcl_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg11.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr
  swap; · iexact HS
  ipureintro
  sl_unfold_run_names
  rw [View.read_writes_eq_canon _ _ _ (fun y => ⟨_, List.mem_cons.mpr (Or.inl rfl), View.mem_set_unit_zero (S := S8x128) hz2 inb_S8x128_S8x128_0_0 y⟩),
    View.canon_cons_unit_zero (S := S8x128) hz2]
  simp only [View.readAt_eq_ld, harg2.read_unread, harg3.read_unread, harg4.read_unread, harg5.read_unread, harg6.read_unread,
    harg7.read_unread, harg8.read_unread, harg9.read_unread, harg11.read_unread, View.ld_unit_zero (S := S512x512) hz2,
    View.ld_unit_zero (S := S8x128) hz2, View.readCov_unit_zero (S := S8x128) _ hz2]
  rfl

set_option maxHeartbeats 4000000 in
/-- Case `0 < j < 7`.  The accumulator at `xs` ends at `accStep xs x0 … x7`; the blocks are as they were and the output's
    buffer is not touched. -/
theorem run_B (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x512 .f32) (harg9 : arg9.IsWhole)
    (arg10 : Memref sig .tc .vmem S1x8x128 .f32) (harg10 : arg10.IsWhole) (arg11 : Memref sig .tc .vmem S8x128 .f32) (harg11 : arg11.IsWhole)
    (hc0 : ¬cond0 i) (hc1 : ¬cond1 i) (x0 x1 x2 x3 x4 x5 x6 x7 : Vec F S512x512 .f32) (xs : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare (accStep xs x0 x1 x2 x3 x4 x5 x6 x7)) -∗ K ⟨⟩))
      ⊢ wp frame (wpE (defs₀ (F := F)) Variants.none c none) E (cc0_pgcl_kernel i arg2 harg2 arg3 harg3 arg4 harg4 arg5 harg5 arg6 harg6 arg7 harg7 arg8 harg8 arg9 harg9 arg10 harg10 arg11 harg11) K := by
  simp only [cc0_pgcl_kernel_eq_skeleton]; unfold cc0_pgcl_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg11.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr
  swap; · iexact HS
  ipureintro
  sl_unfold_run_names
  rw [View.read_writes_eq_canon _ _ _ (fun y => ⟨_, List.mem_singleton_self _, View.mem_set_unit_zero (S := S8x128) hz2 inb_S8x128_S8x128_0_0 y⟩),
    View.canon_unit_zero (S := S8x128) hz2]
  simp only [View.readAt_eq_ld, harg2.read_unread, harg3.read_unread, harg4.read_unread, harg5.read_unread, harg6.read_unread,
    harg7.read_unread, harg8.read_unread, harg9.read_unread, harg11.read_unread, View.ld_unit_zero (S := S512x512) hz2,
    View.ld_unit_zero (S := S8x128) hz2, View.readCov_unit_zero (S := S8x128) _ hz2]
  rfl

set_option maxHeartbeats 4000000 in
/-- Case `j = 7`.  The accumulator at `xs` ends at `accStep xs x0 … x7`, and the output's buffer, whatever it held, ends at
    that value re-shaped (`k0_pay1`); the blocks are as they were. -/
theorem run_C (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .f32) (harg8 : arg8.IsWhole) (arg9 : Memref sig .tc .vmem S512x512 .f32) (harg9 : arg9.IsWhole)
    (arg10 : Memref sig .tc .vmem S1x8x128 .f32) (harg10 : arg10.IsWhole) (arg11 : Memref sig .tc .vmem S8x128 .f32) (harg11 : arg11.IsWhole)
    (hc0 : ¬cond0 i) (hc1 : cond1 i) (x0 x1 x2 x3 x4 x5 x6 x7 : Vec F S512x512 .f32) (xs : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay1 (accStep xs x0 x1 x2 x3 x4 x5 x6 x7))
            ∗ owns (c : Thread nD τ) arg11 fullShare (accStep xs x0 x1 x2 x3 x4 x5 x6 x7)) -∗ K ⟨⟩))
      ⊢ wp frame (wpE (defs₀ (F := F)) Variants.none c none) E (cc0_pgcl_kernel i arg2 harg2 arg3 harg3 arg4 harg4 arg5 harg5 arg6 harg6 arg7 harg7 arg8 harg8 arg9 harg9 arg10 harg10 arg11 harg11) K := by
  simp only [cc0_pgcl_kernel_eq_skeleton]; unfold cc0_pgcl_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, HO⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg11.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HO]
  · iexists _; isplitr
    swap; · iexact HO
    ipureintro
    sl_unfold_run_names
    rw [View.read_writes_eq_canon _ _ _ (fun y => ⟨_, List.mem_singleton_self _, View.mem_set_unit_zero (S := S1x8x128) hz3 inb_S1x8x128_S1x8x128_0_0_0 y⟩),
      View.canon_unit_zero (S := S1x8x128) hz3]
    simp only [View.readAt_eq_ld, harg2.read_unread, harg3.read_unread, harg4.read_unread, harg5.read_unread, harg6.read_unread,
    harg7.read_unread, harg8.read_unread, harg9.read_unread, harg11.read_unread, View.ld_unit_zero (S := S512x512) hz2,
    View.ld_unit_zero (S := S8x128) hz2, View.readCov_unit_zero (S := S8x128) _ hz2]
    rfl
  iexists _; isplitr
  swap; · iexact HS
  ipureintro
  sl_unfold_run_names
  rw [View.read_writes_eq_canon _ _ _ (fun y => ⟨_, List.mem_singleton_self _, View.mem_set_unit_zero (S := S8x128) hz2 inb_S8x128_S8x128_0_0 y⟩),
    View.canon_unit_zero (S := S8x128) hz2]
  simp only [View.readAt_eq_ld, harg2.read_unread, harg3.read_unread, harg4.read_unread, harg5.read_unread, harg6.read_unread,
    harg7.read_unread, harg8.read_unread, harg9.read_unread, harg11.read_unread, View.ld_unit_zero (S := S512x512) hz2,
    View.ld_unit_zero (S := S8x128) hz2, View.readCov_unit_zero (S := S8x128) _ hz2]
  rfl

/-! ## What the obligation asks of each window's buffer after the body -/

theorem leaves_0 (c : Dev nD) (t : Fin cfg0.N) :
    (dat m c).leavesExact 0 t = owns (c : Thread nD τ) (ms0 t) fullShare (iblk m c 0 t) := by
  unfold Dat.leavesExact; rw [live_in 0 (by decide) t, after_0]
theorem leaves_1 (c : Dev nD) (t : Fin cfg0.N) :
    (dat m c).leavesExact 1 t = owns (c : Thread nD τ) (ms1 t) fullShare (iblk m c 1 t) := by
  unfold Dat.leavesExact; rw [live_in 1 (by decide) t, after_1]
theorem leaves_2 (c : Dev nD) (t : Fin cfg0.N) :
    (dat m c).leavesExact 2 t = owns (c : Thread nD τ) (ms2 t) fullShare (iblk m c 2 t) := by
  unfold Dat.leavesExact; rw [live_in 2 (by decide) t, after_2]
theorem leaves_3 (c : Dev nD) (t : Fin cfg0.N) :
    (dat m c).leavesExact 3 t = owns (c : Thread nD τ) (ms3 t) fullShare (iblk m c 3 t) := by
  unfold Dat.leavesExact; rw [live_in 3 (by decide) t, after_3]
theorem leaves_4 (c : Dev nD) (t : Fin cfg0.N) :
    (dat m c).leavesExact 4 t = owns (c : Thread nD τ) (ms4 t) fullShare (iblk m c 4 t) := by
  unfold Dat.leavesExact; rw [live_in 4 (by decide) t, after_4]
theorem leaves_5 (c : Dev nD) (t : Fin cfg0.N) :
    (dat m c).leavesExact 5 t = owns (c : Thread nD τ) (ms5 t) fullShare (iblk m c 5 t) := by
  unfold Dat.leavesExact; rw [live_in 5 (by decide) t, after_5]
theorem leaves_6 (c : Dev nD) (t : Fin cfg0.N) :
    (dat m c).leavesExact 6 t = owns (c : Thread nD τ) (ms6 t) fullShare (iblk m c 6 t) := by
  unfold Dat.leavesExact; rw [live_in 6 (by decide) t, after_6]
theorem leaves_7 (c : Dev nD) (t : Fin cfg0.N) :
    (dat m c).leavesExact 7 t = owns (c : Thread nD τ) (ms7 t) fullShare (iblk m c 7 t) := by
  unfold Dat.leavesExact; rw [live_in 7 (by decide) t, after_7]

/-- At `j = 7` the output's buffer is left at the accumulator re-shaped; -/
theorem leaves_8_live (c : Dev nD) (t : Fin cfg0.N) (h : cond1 (grid0.coords t)) :
    (dat m c).leavesExact 8 t = owns (c : Thread nD τ) (ms8 t) fullShare (k0_pay1 (accAt m c t.val t.isLt)) := by
  unfold Dat.leavesExact; rw [live_out t h, after_8]

/-- elsewhere it is left as found. -/
theorem leaves_8_idle (c : Dev nD) (t : Fin cfg0.N) (h : ¬cond1 (grid0.coords t)) :
    (dat m c).leavesExact 8 t = iprop(∃ d, owns (c : Thread nD τ) (ms8 t) fullShare ((dat m c).before 8 t d)) :=
  Dat.leavesExact_idle (dat m c) 8 t (idle_out t h) (noflush_out t h)

/-! ## The body obligation, at a generic point -/

/-- What the body is called with at point `t`, the windows one by one, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d))
    ∗ (∃ d, owns (c : Thread nD τ) (ms6 t) fullShare ((dat m c).before 6 t d))
    ∗ (∃ d, owns (c : Thread nD τ) (ms7 t) fullShare ((dat m c).before 7 t d))
    ∗ (∃ d, owns (c : Thread nD τ) (ms8 t) fullShare ((dat m c).before 8 t d)))

/-- and what it returns. -/
def bodyPost (c : Dev nD) (t : Fin cfg0.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t
    ∗ (dat m c).leavesExact 5 t
    ∗ (dat m c).leavesExact 6 t
    ∗ (dat m c).leavesExact 7 t
    ∗ (dat m c).leavesExact 8 t)

set_option maxHeartbeats 4800000 in
/-- The body at any point: the inputs' buffers hold their blocks; the point's column says which case it is in; the invariant
    hands the body the accumulator at what the point before left (at anything before the first point) and takes it back at
    this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dat m c).owesAt () t.succ = (dat m c).owesAt () t.castSucc from rfl]
  rw [show (dat m c).Φ t.succ = PhiS m c (t.val + 1) t.isLt from rfl, PhiS_succ]
  rw [leaves_0, leaves_1, leaves_2, leaves_3, leaves_4, leaves_5, leaves_6, leaves_7]
  by_cases h0 : t.val % 8 = 0
  · have hc0 : cond0 (grid0.coords t) := (hcond0 t).mpr h0
    have hc1 : ¬cond1 (grid0.coords t) := fun h => by have := (hcond1 t).mp h; omega
    rw [leaves_8_idle m c t hc1, accAt_reset m c t h0]
    by_cases hz : t.val = 0
    · rw [PhiS_castSucc m c t, PhiS_zero m c _ _ hz, PhiA0_eq]
      iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (xb0 m c t) (xb1 m c t) (xb2 m c t) (xb3 m c t) (xb4 m c t) (xb5 m c t) (xb6 m c t) (xb7 m c t) ds Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (xb0 m c t) (xb1 m c t) (xb2 m c t) (xb3 m c t) (xb4 m c t) (xb5 m c t) (xb6 m c t) (xb7 m c t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hc0 : ¬cond0 (grid0.coords t) := fun h => h0 ((hcond0 t).mp h)
    have hz : t.val ≠ 0 := fun e => h0 (by rw [e])
    rw [accAt_step m c t h0, PhiS_castSucc m c t, PhiS_pos m c _ _ hz]
    by_cases h1 : t.val % 8 = 7
    · have hc1 : cond1 (grid0.coords t) := (hcond1 t).mpr h1
      rw [leaves_8_live m c t hc1, accAt_step m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (xb0 m c t) (xb1 m c t) (xb2 m c t) (xb3 m c t) (xb4 m c t) (xb5 m c t) (xb6 m c t) (xb7 m c t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond1 (grid0.coords t) := fun h => h1 ((hcond1 t).mp h)
      rw [leaves_8_idle m c t hc1]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) hc0 hc1 (xb0 m c t) (xb1 m c t) (xb2 m c t) (xb3 m c t) (xb4 m c t) (xb5 m c t) (xb6 m c t) (xb7 m c t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation (c : Dev nD) : BodyObligation (dat (F := F) m c) (defs₀ (F := F)) Variants.none () Set.univ := fun t => by
  rw [bigSep_W0, bigSep_W0]
  exact sound_body m c t

end Cert.Kernel.Hand

end
-- ==== Proof.RunB.lean ====
/-
  The launch: @main is the pallas_call followed by six host operations.  Each feature map is handed to the call twice, so
  its buffer's full share is dealt in halves to the two windows that read it, and joined again when the call returns.
-/
import proofs.«135397_j31490700214616_1_alg».proof.Proof.BodyB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers behind the windows, and the windows' shares of them -/

/-- The five buffers behind the nine windows, each whole at the full share. -/
theorem arrBufs_eq (c : Dev nD) (V' : (b : Ref sig .tc) → Buf (Elt F) ((c : Thread nD τ).loc b)) :
    (Pipeline.arrBufs spec0 c V' : sProp 𝕄)
      = iprop((((c : Thread nD τ).loc main_arg0) ↦{fullShare} V' main_arg0) ∗ (((c : Thread nD τ).loc main_arg1) ↦{fullShare} V' main_arg1)
          ∗ (((c : Thread nD τ).loc main_arg2) ↦{fullShare} V' main_arg2) ∗ (((c : Thread nD τ).loc main_arg3) ↦{fullShare} V' main_arg3)
          ∗ (((c : Thread nD τ).loc main_v0) ↦{fullShare} V' main_v0)) := by
  unfold Pipeline.arrBufs
  rw [bigSep_eq_bigSepL_of_eq [main_arg0, main_arg1, main_arg2, main_arg3, main_v0] (by decide) (by decide)]
  rfl

/-- The nine windows' arrays at contents `G`: each feature map's buffer twice, at the left and the right half of the full
    share, and the output's buffer at the full share. -/
theorem arrays_eq' (c : Dev nD) (G : (w : Fin cfg0.W) → Buf (Elt F) ((cfg0.win w).arr.view.loc (c : Thread nD τ))) :
    ((dat m c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_arg2) ↦{fullShare.left} G 4) ∗ (((c : Thread nD τ).loc main_arg2) ↦{fullShare.right} G 5)
          ∗ (((c : Thread nD τ).loc main_arg3) ↦{fullShare.left} G 6) ∗ (((c : Thread nD τ).loc main_arg3) ↦{fullShare.right} G 7)
          ∗ (((c : Thread nD τ).loc main_v0) ↦{fullShare} G 8)) := by
  unfold Pipeline.Dat.arrays
  rw [bigSep_W0]
  have s0 : (dat m c).share 0 = fullShare.left := rfl
  have s1 : (dat m c).share 1 = fullShare.right := rfl
  have s2 : (dat m c).share 2 = fullShare.left := rfl
  have s3 : (dat m c).share 3 = fullShare.right := rfl
  have s4 : (dat m c).share 4 = fullShare.left := rfl
  have s5 : (dat m c).share 5 = fullShare.right := rfl
  have s6 : (dat m c).share 6 = fullShare.left := rfl
  have s7 : (dat m c).share 7 = fullShare.right := rfl
  have s8 : (dat m c).share 8 = fullShare := rfl
  simp only [s0, s1, s2, s3, s4, s5, s6, s7, s8, View.set_whole]

/-- A buffer's full share is its two halves. -/
theorem halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-! ## The contents when the call returns -/

/-- Core `c`'s buffers when the call returns: the output array at what the write-backs leave, every other buffer as
    launched. -/
def W1 (c : Dev nD) : Valuation τ sig (Elt F) :=
  Function.update (W0 m c) (Proc.devRef .tc main_v0) ((dat m c).arrAt 8 cfg0.N)
/-- The same read at a TensorCore reference. -/
abbrev V1 (c : Dev nD) (b : Ref sig .tc) : Buf (Elt F) ((c : Thread nD τ).loc b) := W1 m c (Proc.devRef .tc b)

theorem W1_out (c : Dev nD) : W1 m c (Proc.devRef .tc main_v0) = (dat m c).arrAt 8 cfg0.N := by
  unfold W1; exact Function.update_self ..
theorem W1_of_ne (c : Dev nD) (b : Ref sig .tc) (h : b ≠ main_v0) : W1 m c (Proc.devRef .tc b) = W0 m c (Proc.devRef .tc b) := by
  unfold W1; exact Function.update_of_ne (StableHlo.devRef_ne_of_ne h) ..

/-! ## Entry and exit: the unscoped buffers dealt to the windows, and gathered again -/

/-- ENTRY: the launch's unscoped buffers are the windows' arrays at their entry contents — each feature map's buffer
    halved between its two windows — and the buffers no window reads. -/
theorem entry_split (c : Dev nD) :
    (StableHlo.held (c : Thread nD τ) (Pipeline.ucRefs τ sig) (W0 m c) : sProp 𝕄)
      ⊢ iprop((dat m c).arrays ((dat m c).arrAt · 0) ∗ Pipeline.unscopedRest spec0 c (V m c)) := by
  have hs : (unscopedBufs c (V m c) : sProp 𝕄) = iprop(Pipeline.arrBufs spec0 c (V m c) ∗ Pipeline.unscopedRest spec0 c (V m c)) :=
    Pipeline.unscopedBufs_split₀ cfgs 0 winFacts₀0.arr_unscoped c (V m c)
  rw [← Pipeline.unscopedBufs_held c (W0 m c), hs, arrBufs_eq, arrays_eq']
  iintro ⟨⟨H0, H1, H2, H3, H8⟩, Hrest⟩
  ihave H0 := (halves _).1 $$ H0
  ihave H1 := (halves _).1 $$ H1
  ihave H2 := (halves _).1 $$ H2
  ihave H3 := (halves _).1 $$ H3
  icases H0 with ⟨H0l, H0r⟩
  icases H1 with ⟨H1l, H1r⟩
  icases H2 with ⟨H2l, H2r⟩
  icases H3 with ⟨H3l, H3r⟩
  isplitr [Hrest]
  swap; · iexact Hrest
  isplitl [H0l]; · iexact H0l
  isplitl [H0r]; · iexact H0r
  isplitl [H1l]; · iexact H1l
  isplitl [H1r]; · iexact H1r
  isplitl [H2l]; · iexact H2l
  isplitl [H2r]; · iexact H2r
  isplitl [H3l]; · iexact H3l
  isplitl [H3r]; · iexact H3r
  iexact H8

/-- EXIT: the windows' arrays at what the call leaves — an input's as at entry, so that a feature map's two halves agree and
    join — and the buffers no window reads are the unscoped buffers at the exit contents. -/
theorem exit_join (c : Dev nD) :
    iprop((dat m c).arrays ((dat m c).arrAt · cfg0.N) ∗ Pipeline.unscopedRest spec0 c (V m c))
      ⊢ (StableHlo.held (c : Thread nD τ) (Pipeline.ucRefs τ sig) (W1 m c) : sProp 𝕄) := by
  have hs : (unscopedBufs c (V1 m c) : sProp 𝕄) = iprop(Pipeline.arrBufs spec0 c (V1 m c) ∗ Pipeline.unscopedRest spec0 c (V1 m c)) :=
    Pipeline.unscopedBufs_split₀ cfgs 0 winFacts₀0.arr_unscoped c (V1 m c)
  have hrest : (Pipeline.unscopedRest spec0 c (V1 m c) : sProp 𝕄) = Pipeline.unscopedRest spec0 c (V m c) := by
    rw [unscopedRest0_eq, unscopedRest0_eq]
    simp only [V1, W1_of_ne m c main_v1 (by decide), W1_of_ne m c main_v2 (by decide), W1_of_ne m c main_cst (by decide),
      W1_of_ne m c main_v3 (by decide), W1_of_ne m c main_cst_0 (by decide), W1_of_ne m c main_v4 (by decide)]
  have h0 : (dat m c).arrAt 0 cfg0.N = V1 m c main_arg0 := ((dat m c).arrAt_in 0 rfl _).trans (W1_of_ne m c main_arg0 (by decide)).symm
  have h1 : (dat m c).arrAt 1 cfg0.N = V1 m c main_arg0 := ((dat m c).arrAt_in 1 rfl _).trans (W1_of_ne m c main_arg0 (by decide)).symm
  have h2 : (dat m c).arrAt 2 cfg0.N = V1 m c main_arg1 := ((dat m c).arrAt_in 2 rfl _).trans (W1_of_ne m c main_arg1 (by decide)).symm
  have h3 : (dat m c).arrAt 3 cfg0.N = V1 m c main_arg1 := ((dat m c).arrAt_in 3 rfl _).trans (W1_of_ne m c main_arg1 (by decide)).symm
  have h4 : (dat m c).arrAt 4 cfg0.N = V1 m c main_arg2 := ((dat m c).arrAt_in 4 rfl _).trans (W1_of_ne m c main_arg2 (by decide)).symm
  have h5 : (dat m c).arrAt 5 cfg0.N = V1 m c main_arg2 := ((dat m c).arrAt_in 5 rfl _).trans (W1_of_ne m c main_arg2 (by decide)).symm
  have h6 : (dat m c).arrAt 6 cfg0.N = V1 m c main_arg3 := ((dat m c).arrAt_in 6 rfl _).trans (W1_of_ne m c main_arg3 (by decide)).symm
  have h7 : (dat m c).arrAt 7 cfg0.N = V1 m c main_arg3 := ((dat m c).arrAt_in 7 rfl _).trans (W1_of_ne m c main_arg3 (by decide)).symm
  have h8 : (dat m c).arrAt 8 cfg0.N = V1 m c main_v0 := (W1_out m c).symm
  rw [← Pipeline.unscopedBufs_held c (W1 m c), hs, hrest, arrBufs_eq, arrays_eq', h0, h1, h2, h3, h4, h5, h6, h7, h8]
  iintro ⟨⟨H0l, H0r, H1l, H1r, H2l, H2r, H3l, H3r, H8⟩, Hrest⟩
  isplitr [Hrest]
  swap; · iexact Hrest
  isplitl [H0l H0r]
  · iapply (halves _).2; isplitl [H0l] <;> iassumption
  isplitl [H1l H1r]
  · iapply (halves _).2; isplitl [H1l] <;> iassumption
  isplitl [H2l H2r]
  · iapply (halves _).2; isplitl [H2l] <;> iassumption
  isplitl [H3l H3r]
  · iapply (halves _).2; isplitl [H3l] <;> iassumption
  iexact H8

/-! ## The invariant after the last point gives the scratch back -/

/-- After any point the invariant gives back the generator register and the scratch buffer at some contents: what the
    accumulator holds is forgotten. -/
theorem PhiS_out (c : Dev nD) : ∀ (n : ℕ) (h : n ≤ cfg0.N), n ≠ 0 →
    PhiS m c n h ⊢ iprop((∃ r, prngReg c r) ∗ (BI.emp : sProp 𝕄) ∗ Pipeline.scopedRest spec0 c)
  | 0, _, h0 => absurd rfl h0
  | n + 1, h, _ => by
    rw [scopedRest0_eq, show PhiS m c (n + 1) h
      = iprop(iprop(owns (c : Thread nD τ) scM fullShare (accAt m c n h)) ∗ (∃ r, prngReg c r)) from rfl]
    simp only [scM, owns_whole]
    iintro ⟨Hs, Hr⟩
    isplitl [Hr]; · iexact Hr
    isplitr; · iempintro
    iexists _; iexact Hs

/-! ## The proof data family and the thread state -/

/-- The prefetched tables' admissible contents: the pipeline has no table. -/
abbrev adm : (p : Fin 1) → (pcfgs (F := F) p).Adm := fun p => (cfgs p).toPCfg_adm
/-- The one pipeline's proof data. -/
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both segments: the core's generator register at some state and its `owes`, at
    nothing. -/
abbrev R (c : Dev nD) : sProp 𝕄 := iprop((∃ r, prngReg c r) ∗ ∃ W, owes (c : Thread nD τ) (0 : CellTallies nD τ sig Unit) W)

/-- No host operation allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations as a segment: run from the unscoped buffers at the call's exit contents, `R` riding along. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

/-- The buffers after the host operations. -/
abbrev W2 (c : Dev nD) : Valuation τ sig (Elt F) := StableHlo.after hostOps1 (W1 m c)
/-- The last thread state without the `owes`: every unscoped buffer at the last contents, the generator register at some
    state. -/
abbrev Tₙ (c : Dev nD) : sProp 𝕄 := iprop(StableHlo.held (c : Thread nD τ) (Pipeline.ucRefs τ sig) (W2 m c) ∗ ∃ r, prngReg c r)

/-! ## The call as a segment -/

set_option backward.isDefEq.respectTransparency.types false in
/-- The pallas_call over the thread state: entered from every unscoped buffer as launched, left at the exit contents. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    iintro ⟨⟨Hub, Hp, HO⟩, -, -⟩
    ihave H := (entry_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact PhiS_out m c (Fin.last cfg0.N).val (Nat.le_of_lt_succ (Fin.last cfg0.N).isLt)
      (by rw [Fin.val_last]; have : cfg0.N = 64 := N_0; omega)
  hexit c := by
    iintro ⟨Ha, HO, HY, Hrest⟩
    imodintro
    isplitl [Ha Hrest]
    · iapply (exit_join m c)
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's two segments: the call, then the host operations. -/
abbrev segs : List (Pipeline.Seg (pcfgs (F := F)) adm (pdats m) () defs₀ 𝒱₀ L lv) :=
  [ .region (reg0 m), .host (hseg1 m) ]
/-- @main is the run of the segments. -/
theorem main_run (c : Dev nD) : main (F := F) c = Pipeline.Seg.run (segs m) := (main_chain c).trans (by chain_rfl)

/-! ## What the last contents hold -/

/-- The result buffer after the host operations: their value of the output array as the call leaves it. -/
theorem W2_main_v4 (c : Dev nD) : W2 m c (Proc.devRef .tc main_v4) = tailVal ((dat m c).arrAt 8 cfg0.N) := by
  unfold W2 tailVal
  after_results
  rw [W1_out]
  rfl

/-- No host operation writes an argument array, and the call leaves it as launched. -/
theorem W2_arg (c : Dev nD) (b : Ref sig .tc) (hb : b ≠ main_v0) (h1 : b ≠ main_v1) (h2 : b ≠ main_v2) (h3 : b ≠ main_cst)
    (h4 : b ≠ main_v3) (h5 : b ≠ main_cst_0) (h6 : b ≠ main_v4) :
    W2 m c (Proc.devRef .tc b) = m ((c : Thread nD τ).loc b) :=
  calc W2 m c (Proc.devRef .tc b)
    _ = W1 m c (Proc.devRef .tc b) := StableHlo.after_of_forall_not_mem (b := Proc.devRef .tc b) _ _ (List.forall_iff_forall_mem.mp (by
          simp only [hostOps1, List.Forall, StableHlo.nullary_writes, StableHlo.unary_writes, StableHlo.binary_writes, StableHlo.reshape_writes, Finset.mem_singleton]
          exact ⟨StableHlo.devRef_ne_of_ne h1, StableHlo.devRef_ne_of_ne h2, StableHlo.devRef_ne_of_ne h3, StableHlo.devRef_ne_of_ne h4,
            StableHlo.devRef_ne_of_ne h5, StableHlo.devRef_ne_of_ne h6⟩))
    _ = W0 m c (Proc.devRef .tc b) := W1_of_ne m c b hb
    _ = m ((c : Thread nD τ).loc b) := rfl

set_option backward.isDefEq.respectTransparency.types false in
/-- Every weakly fair execution of @main terminates, nothing faulting; the result buffer ends at the host operations'
    value of the output array as the call's write-backs leave it, and the four argument arrays end unchanged. -/
theorem run_main (ρ : Dev nD → PrngReg) :
    θ_run defs (onTc (τ := τ) (main (F := F))) ⟨m, fun _ => 0, ρ⟩ (fun r => ∀ c : Dev nD,
      r.2.mem ((c.tc : Thread nD τ).loc main_v4) = tailVal ((dat m c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun c =>
      (show iprop(StableHlo.held (c : Thread nD τ) (Pipeline.ucRefs τ sig) (W2 m c) ∗ R c)
          ⊢ iprop(Tₙ m c ∗ ∃ W, owes (c : Thread nD τ) (0 : CellTallies nD τ sig Unit) W) from by
        iintro ⟨Hh, Hp, HO⟩
        isplitr [HO]
        swap; · iexact HO
        isplitl [Hh]; · iexact Hh
        iexact Hp)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v4 (by decide))).trans (W2_main_v4 m c),
       (h c _ (mem_uc main_arg0 (by decide))).trans (W2_arg m c main_arg0 (by decide) (by decide) (by decide) (by decide) (by decide) (by decide) (by decide)),
       (h c _ (mem_uc main_arg1 (by decide))).trans (W2_arg m c main_arg1 (by decide) (by decide) (by decide) (by decide) (by decide) (by decide) (by decide)),
       (h c _ (mem_uc main_arg2 (by decide))).trans (W2_arg m c main_arg2 (by decide) (by decide) (by decide) (by decide) (by decide) (by decide) (by decide)),
       (h c _ (mem_uc main_arg3 (by decide))).trans (W2_arg m c main_arg3 (by decide) (by decide) (by decide) (by decide) (by decide) (by decide) (by decide))⟩)

end Cert.Kernel.Hand

end
-- ==== Proof.Spec.lean ====
/-
  The mathematics both programs compute, stated once over the extended reals, with no program in sight.

  For a feature map `a : Fin 4096 → Fin 512 → EReal` the UNIT ROWS are `a p k / max (sqrt (∑ k', a p k' · a p k')) ε`, the GRAM
  entry `(p, q)` the inner product of unit rows `p` and `q`.  The loss of a modality `a` against the text modality `t` is
  the mean over all 4096² entries of the squared, tenfold difference of the two Gram matrices; the result is the sum of
  the three losses.  The reference multiplies each Gram matrix by ten before subtracting and divides each loss by the
  count; the kernel subtracts first, sums tile pair by tile pair (an 8 × 8 grid of 512 × 512 tiles) and divides the grand
  total once.
-/
import Idealize.ShloMosaic.PureOps.Ideal
import Idealize.ShloMosaic.Lib.ValueIdx

noncomputable section

namespace Cert.PgclSpec

open Idealize.ShloMosaic

/-- The floor under a row's norm, the factor ten and the entry count 4096², as the programs spell them. -/
def eps : EReal := Ideal.ofBits .f32 0x2B8CBCCC#32
def ten : EReal := Ideal.ofBits .f32 0x41200000#32
def cnt : EReal := Ideal.ofBits .f32 0x4B800000#32

/-- A 4096 × 512 array and a 512 × 512 block of extended reals read by row and column. -/
def arr2 (x : (⟨2, ![4096, 512]⟩ : Shape).Idx → EReal) : Fin 4096 → Fin 512 → EReal := fun p k => x (ValueIdx.ix2 p k)
def cur (x : (⟨2, ![512, 512]⟩ : Shape).Idx → EReal) : Fin 512 → Fin 512 → EReal := fun r k => x (ValueIdx.ix2 r k)

/-! ## Over a whole feature map (the reference's arrangement) -/

/-- Row `p` scaled to unit length (a row shorter than `ε` is divided by `ε`). -/
def unit (a : Fin 4096 → Fin 512 → EReal) (p : Fin 4096) (k : Fin 512) : EReal :=
  Ideal.div (a p k) (max (Ideal.sqrt (∑ k' : Fin 512, a p k' * a p k')) eps)

/-- The Gram matrix of the unit rows. -/
def gram (a : Fin 4096 → Fin 512 → EReal) (p q : Fin 4096) : EReal := ∑ k : Fin 512, unit a p k * unit a q k

/-- One modality's loss against the text modality `t`: each Gram matrix times ten, subtracted, squared, averaged. -/
def refLoss (t a : Fin 4096 → Fin 512 → EReal) : EReal :=
  Ideal.div (∑ p : Fin 4096, ∑ q : Fin 4096, (gram t p q * ten - gram a p q * ten) * (gram t p q * ten - gram a p q * ten)) cnt

/-- The reference's result: the three losses added, `a0, a1, a2` against the text modality `a3`. -/
def refVal (a0 a1 a2 a3 : Fin 4096 → Fin 512 → EReal) : EReal := refLoss a3 a0 + refLoss a3 a1 + refLoss a3 a2

/-! ## Over 512-row tiles (the kernel's arrangement) -/

/-- Row `r` of tile `i`. -/
def tile (i : Fin 8) (r : Fin 512) : Fin 4096 := ⟨i.val * 512 + r.val, by have := i.isLt; have := r.isLt; omega⟩

/-- Tile `i` of a feature map. -/
def blk (a : Fin 4096 → Fin 512 → EReal) (i : Fin 8) : Fin 512 → Fin 512 → EReal := fun r k => a (tile i r) k

/-- A tile's rows scaled to unit length. -/
def unitB (x : Fin 512 → Fin 512 → EReal) (r : Fin 512) (k : Fin 512) : EReal :=
  Ideal.div (x r k) (max (Ideal.sqrt (∑ k' : Fin 512, x r k' * x r k')) eps)

/-- The Gram tile of two tiles' unit rows. -/
def gramB (x y : Fin 512 → Fin 512 → EReal) (r s : Fin 512) : EReal := ∑ k : Fin 512, unitB x r k * unitB y s k

/-- One modality's squared tenfold difference against the text modality, summed over a tile pair. -/
def sqB (ti tj xi xj : Fin 512 → Fin 512 → EReal) : EReal :=
  ∑ r : Fin 512, ∑ s : Fin 512, ((gramB ti tj r s - gramB xi xj r s) * ten) * ((gramB ti tj r s - gramB xi xj r s) * ten)

/-- What one grid point adds to the accumulator, from the eight blocks in window order
    (rgb i, rgb j, depth i, depth j, ir i, ir j, text i, text j). -/
def blockPartial (x0 x1 x2 x3 x4 x5 x6 x7 : Fin 512 → Fin 512 → EReal) : EReal :=
  sqB x6 x7 x0 x1 + sqB x6 x7 x2 x3 + sqB x6 x7 x4 x5

/-- The kernel's result: every tile pair's contribution added, divided by the count once. -/
def kerVal (a0 a1 a2 a3 : Fin 4096 → Fin 512 → EReal) : EReal :=
  Ideal.div (∑ i : Fin 8, ∑ j : Fin 8,
    blockPartial (blk a0 i) (blk a0 j) (blk a1 i) (blk a1 j) (blk a2 i) (blk a2 j) (blk a3 i) (blk a3 j)) cnt

end Cert.PgclSpec

end
-- ==== Proof.Payload.lean ====
/-
  What the body's arithmetic is at `Ideal`, lane by lane: every lane of the accumulator gains the tile pair's partial loss
  `blockPartial` of the eight blocks; the zeroed accumulator is zero on every lane; the output block is the accumulator.
-/
import proofs.«135397_j31490700214616_1_alg».proof.Proof.Gen.KernelIdeal.Skeleton
import proofs.«135397_j31490700214616_1_alg».proof.Proof.Data
import proofs.«135397_j31490700214616_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.TcCoe Cert.KernelIdeal Cert.KernelIdeal.Gen Cert.KernelIdeal.Hand
open Cert.PgclSpec ValueIdx

/-- The lane sum of a 512 × 512 block at row r. -/
theorem rowSum_apply (v : FVec Ideal S512x512 .f32) (r : Fin 512) :
    multiReduction (F := Ideal) .add [1] S512 v 0x00000000#32 reduces_S512x512_S512 (.inl rfl) rfl (ix1 r)
      = ∑ k : Fin 512, v (ix2 r k) := by
  refine (Ideal.multiReduction_add_single v 0x00000000#32 reduces_S512x512_S512 (.inl rfl) rfl (ix1 r)).trans ?_
  exact Finset.sum_congr rfl fun k _ => congrArg v (funext fun a => Fin.ext (by
    match a with
    | ⟨0, _⟩ => rfl
    | ⟨1, _⟩ => rfl))

/-- A column [a] viewed [a, 1]. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the lanes to [a, b]. -/
theorem broadcastTo_a1_ab_apply {α : Type} {a b : ℕ} (ha : a ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ =>
    exact (if_pos rfl).symm

/-- A block's row scaled to unit length, entry by entry. -/
theorem unit_apply (x : Vec Ideal S512x512 .f32) (r k : Fin 512) :
    (k0_pay3 (F := Ideal) x (ix2 r k) : EReal) = unitB (cur x) r k := by
  unfold k0_pay3 unitB cur
  dsimp only
  refine (divf_apply _ _ _).trans (congrArg (Ideal.div (x (ix2 r k))) ?_)
  refine (broadcastTo_a1_ab_apply (by decide) _ _ r k).trans ?_
  refine (maximumf_apply _ _ _).trans ?_
  refine congrArg₂ max ?_ rfl
  show Ideal.sqrt (shapeCast S512x1 _ shapeCasts_S512_S512x1 (ix2 r 0)) = _
  refine congrArg Ideal.sqrt ?_
  refine (shapeCast_a_a1_apply _ _ r 0).trans ?_
  refine (rowSum_apply _ r).trans ?_
  rfl

/-! The Gram product: both operands are contracted along their lanes. -/

theorem lhs_gram_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhs_gram_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_gram_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhs_gram_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- The product of a block with another block's transpose, from zero: entry (r, s) is the inner product of row r and row s. -/
theorem matmul_rows_apply (y0 y1 : FVec Ideal S512x512 .bf16) (r s : Fin 512) :
    matmul dot_S512x512_S512x512_S512x512_1_1_0_0_n_n none y0 y1 (constant (F := Ideal) S512x512 .f32 0x00000000#32) (ix2 r s)
      = ∑ k : Fin 512, y0 (ix2 r k) * y1 (ix2 s k) := by
  simp only [matmul]
  rw [Ideal.matmul_constant_zero_apply, ← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ix2 r s) ((ValueIdx.contrEquiv1 dot_S512x512_S512x512_S512x512_1_1_0_0_n_n 512 rfl rfl).symm k) = ix2 r k := funext fun a => Fin.ext (by
    match a with
    | ⟨0, _⟩ => exact lhs_gram_0 _ _
    | ⟨1, _⟩ => exact (lhs_gram_1 _ _).trans hk)
  have er : dot_S512x512_S512x512_S512x512_1_1_0_0_n_n.rhsIdx (ix2 r s) ((ValueIdx.contrEquiv1 dot_S512x512_S512x512_S512x512_1_1_0_0_n_n 512 rfl rfl).symm k) = ix2 s k := funext fun a => Fin.ext (by
    match a with
    | ⟨0, _⟩ => exact rhs_gram_0 _ _
    | ⟨1, _⟩ => exact (rhs_gram_1 _ _).trans hk)
  rw [el, er]

/-- The Gram tile of two blocks already scaled. -/
theorem pay10_apply (u v : FVec Ideal S512x512 .f32) (r s : Fin 512) :
    (k0_pay10 (F := Ideal) u v (ix2 r s) : EReal) = ∑ k : Fin 512, u (ix2 r k) * v (ix2 s k) := by
  unfold k0_pay10
  exact matmul_rows_apply _ _ r s

/-- A block's scaling does not depend on which of the six copies of the program text computes it. -/
theorem pay4_eq : @k0_pay4 Ideal _ = k0_pay3 := rfl
theorem pay5_eq : @k0_pay5 Ideal _ = k0_pay3 := rfl
theorem pay6_eq : @k0_pay6 Ideal _ = k0_pay3 := rfl
theorem pay7_eq : @k0_pay7 Ideal _ = k0_pay3 := rfl
theorem pay8_eq : @k0_pay8 Ideal _ = k0_pay3 := rfl
theorem pay9_eq (x y : Vec Ideal S512x512 .f32) : k0_pay9 (F := Ideal) x y = k0_pay10 (k0_pay3 x) (k0_pay3 y) := rfl

/-- The Gram tile of two blocks' unit rows. -/
theorem gram_apply (x y : Vec Ideal S512x512 .f32) (r s : Fin 512) :
    (k0_pay10 (F := Ideal) (k0_pay3 x) (k0_pay3 y) (ix2 r s) : EReal) = gramB (cur x) (cur y) r s := by
  refine (pay10_apply _ _ r s).trans ?_
  unfold gramB
  exact Finset.sum_congr rfl fun k _ => by rw [unit_apply, unit_apply]

/-- The row sum of a 512 × 1 column. -/
theorem colSum_apply (v : FVec Ideal S512x1 .f32) (u : Fin 1) :
    multiReduction (F := Ideal) .add [0] S1 v 0x00000000#32 reduces_S512x1_S1 (.inl rfl) rfl (ix1 u)
      = ∑ r : Fin 512, v (ix2 r u) := by
  refine (Ideal.multiReduction_add_single v 0x00000000#32 reduces_S512x1_S1 (.inl rfl) rfl (ix1 u)).trans ?_
  exact Finset.sum_congr rfl fun k _ => congrArg v (funext fun a => Fin.ext (by
    match a with
    | ⟨0, _⟩ => rfl
    | ⟨1, _⟩ => rfl))

/-- The sum of the squares of a 512 × 512 block, taken along the lanes and then down the rows. -/
theorem sqSum_apply (w : FVec Ideal S512x512 .f32) (u v : Fin 1) :
    shapeCast S1x1 (multiReduction (F := Ideal) .add [0] S1
        (shapeCast S512x1 (multiReduction (F := Ideal) .add [1] S512 (mulf w w) 0x00000000#32 reduces_S512x512_S512 (.inl rfl) rfl) shapeCasts_S512_S512x1)
        0x00000000#32 reduces_S512x1_S1 (.inl rfl) rfl) shapeCasts_S1_S1x1 (ix2 u v)
      = ∑ r : Fin 512, ∑ s : Fin 512, w (ix2 r s) * w (ix2 r s) := by
  refine (shapeCast_a_a1_apply _ _ u v).trans ?_
  refine (colSum_apply _ u).trans ?_
  refine Finset.sum_congr rfl fun r _ => ?_
  refine (shapeCast_a_a1_apply _ _ r u).trans ?_
  exact rowSum_apply _ r

/-- One value [1, 1] broadcast to [a, b]. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => exact (if_pos rfl).symm
  | ⟨1, _⟩ => exact (if_pos rfl).symm

/-- The sum over a tile pair of the squared tenfold difference of two Gram tiles. -/
def sqDiff (g h : Fin 512 → Fin 512 → EReal) : EReal :=
  ∑ r : Fin 512, ∑ s : Fin 512, ((g r s - h r s) * ten) * ((g r s - h r s) * ten)

/-- The last payload: the accumulator plus the three modalities' squared tenfold differences against the text tile. -/
theorem pay11_apply (v29 v38 v47 v56 v77 v80 : FVec Ideal S512x512 .f32) (acc : Vec Ideal S8x128 .f32) (a : Fin 8) (b : Fin 128) :
    (k0_pay11 (F := Ideal) v29 v38 v47 v56 v77 v80 acc (ix2 a b) : EReal)
      = acc (ix2 a b) + (sqDiff (cur v77) (cur v80) + sqDiff (cur v77) (cur (k0_pay10 v29 v38)) + sqDiff (cur v77) (cur (k0_pay10 v47 v56))) := by
  unfold k0_pay11
  refine (congrFun (shapeCast_self _ _) _).trans ?_
  refine (addf_apply _ _ _).trans (congrArg (acc (ix2 a b) + ·) ?_)
  refine (broadcastTo_11_ab_apply _ _ a b).trans ?_
  refine (congrFun (shapeCast_self _ _) _).trans ?_
  refine (addf_apply _ _ _).trans ?_
  refine congrArg₂ (· + ·) ((addf_apply _ _ _).trans (congrArg₂ (· + ·) ?_ ?_)) ?_
  · refine (sqSum_apply _ 0 0).trans ?_
    exact Finset.sum_congr rfl fun r _ => Finset.sum_congr rfl fun s _ => rfl
  · refine (sqSum_apply _ 0 0).trans ?_
    exact Finset.sum_congr rfl fun r _ => Finset.sum_congr rfl fun s _ => rfl
  · refine (sqSum_apply _ 0 0).trans ?_
    exact Finset.sum_congr rfl fun r _ => Finset.sum_congr rfl fun s _ => rfl

/-- The squared tenfold difference of two Gram tiles of unit rows is the specification's. -/
theorem sqDiff_gram (t0 t1 y0 y1 : Vec Ideal S512x512 .f32) :
    sqDiff (cur (k0_pay10 (F := Ideal) (k0_pay3 t0) (k0_pay3 t1))) (cur (k0_pay10 (F := Ideal) (k0_pay3 y0) (k0_pay3 y1)))
      = sqB (cur t0) (cur t1) (cur y0) (cur y1) := by
  unfold sqDiff sqB
  refine Finset.sum_congr rfl fun r _ => Finset.sum_congr rfl fun s _ => ?_
  show ((k0_pay10 (F := Ideal) (k0_pay3 t0) (k0_pay3 t1) (ix2 r s) - k0_pay10 (F := Ideal) (k0_pay3 y0) (k0_pay3 y1) (ix2 r s)) * ten)
      * ((k0_pay10 (F := Ideal) (k0_pay3 t0) (k0_pay3 t1) (ix2 r s) - k0_pay10 (F := Ideal) (k0_pay3 y0) (k0_pay3 y1) (ix2 r s)) * ten) = _
  rw [gram_apply, gram_apply]

/-- One point's effect on a lane of the accumulator. -/
theorem accStep_apply (s : Vec Ideal S8x128 .f32) (x0 x1 x2 x3 x4 x5 x6 x7 : Vec Ideal S512x512 .f32) (a : Fin 8) (b : Fin 128) :
    accStep (F := Ideal) s x0 x1 x2 x3 x4 x5 x6 x7 (ix2 a b)
      = (s (ix2 a b) : EReal) + blockPartial (cur x0) (cur x1) (cur x2) (cur x3) (cur x4) (cur x5) (cur x6) (cur x7) := by
  unfold accStep
  rw [pay4_eq, pay5_eq, pay6_eq, pay7_eq, pay8_eq, pay9_eq]
  refine (pay11_apply _ _ _ _ _ _ s a b).trans ?_
  refine congrArg (s (ix2 a b) + ·) ?_
  unfold blockPartial
  rw [sqDiff_gram, sqDiff_gram, sqDiff_gram]

/-- The zeroed accumulator. -/
theorem pay2_apply (a : Fin 8) (b : Fin 128) : (k0_pay2 (F := Ideal) (ix2 a b) : EReal) = 0 := by
  unfold k0_pay2
  refine (congrFun (shapeCast_self _ _) _).trans ?_
  exact Ideal.ofBits_zero_f32

/-- The output block is the accumulator under one more leading axis. -/
theorem pay1_apply (v : Vec Ideal S8x128 .f32) (a : Fin 8) (b : Fin 128) :
    (k0_pay1 (F := Ideal) v (ix3 (0 : Fin 1) a b) : EReal) = v (ix2 a b) := by
  unfold k0_pay1
  exact shapeCast_ab_1ab_apply v shapeCasts_S8x128_S1x8x128 (0 : Fin 1) a b

end Cert.KernelIdeal.Payload

end
-- ==== Proof.KernelValue.lean ====
/-
  The kernel's result at `Ideal`: the output array after the call holds, in block `i`, the sum over `j` of the tile pairs'
  partial losses; the host operations add the eight blocks' entries and divide by the count: the specification's `kerVal`.
-/
import proofs.«135397_j31490700214616_1_alg».proof.Proof.Data
import proofs.«135397_j31490700214616_1_alg».proof.Proof.Payload
import proofs.«135397_j31490700214616_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KernelValue

open Idealize.ShloMosaic Idealize.ShloMosaic.TcCoe Idealize.SL.Sem Cert.KernelIdeal Cert.KernelIdeal.Gen Cert.KernelIdeal.Hand
open Idealize.ShloMosaic.Pipeline (Dat)
open Cert.PgclSpec ValueIdx

/-- A rank-1 index set is its coordinate range. -/
def idx1Equiv {n : Nat} : (⟨1, ![n]⟩ : Shape).Idx ≃ Fin n where
  toFun i := i 0
  invFun := ix1
  left_inv i := (eq_ix1 i).symm
  right_inv _ := rfl

/-! ## The host operations: entry (i, 0, 0) of each block, the eight added from zero, divided by the count -/

/-- The slice keeps index (i, 0, 0) of each block, the reshape reads it at i, the reduction into the scalar shape is the
    zero plus the sum over every index, and the quotient is the extended reals' division by the count. -/
theorem tail_apply (o : (⟨S8x8x128, .f32⟩ : BufTy).Contents (Elt Ideal)) (j : S_.Idx) :
    tailVal (F := Ideal) o j = Ideal.div (∑ i : Fin 8, (o (ix3 i (0 : Fin 8) (0 : Fin 128)) : EReal)) cnt := by
  unfold tailVal
  simp only [Host.divf, Host.reduceAdd, Ideal.hostReduceAdd_def, Ideal.hostDivf_def]
  rw [Ideal.hostReduceAdd_total reducesTo_S8_S_d0 (fun b => b.elim0)]
  show Ideal.div (Ideal.ofBits .f32 0x00000000#32 + _) (Ideal.ofBits .f32 0x4B800000#32) = _
  rw [Ideal.ofBits_zero_f32, zero_add]
  unfold cnt
  congr 1
  rw [← Equiv.sum_comp (idx1Equiv (n := 8)).symm]
  refine Finset.sum_congr rfl fun k _ => ?_
  show shapeCast S8 _ shapeCasts_S8x1x1_S8 (ix1 k) = _
  refine (shapeCast_apply _ shapeCasts_S8x1x1_S8 _ (ix3 k (0 : Fin 1) (0 : Fin 1)) ?_).trans ?_
  · rw [Shape.rowMajor_val_three, Shape.rowMajor_val_one]
    show (k.val * 1 + 0) * 1 + 0 = k.val
    omega
  · refine extractStridedSlice_apply _ o slices_S8x8x128_S8x1x1_0_0_0 _ (ix3 k (0 : Fin 8) (0 : Fin 128)) fun a => ?_
    match a with
    | ⟨0, _⟩ => show k.val = 0 + k.val; omega
    | ⟨1, _⟩ => rfl
    | ⟨2, _⟩ => rfl

/-! ## The input blocks: row tile t / 8 (even windows) and row tile t % 8 (odd windows) of the feature maps -/

variable (m : (ℓ : Loc nD τ sig) → Buf (Elt Ideal) ℓ)

/-- The even windows' block index at point t is (t / 8, 0), -/
theorem idx_even : ∀ t : Fin grid0.N,
    (win0_0.index t (0 : Fin 2) = t.val / 8 ∧ win0_0.index t (1 : Fin 2) = 0) ∧ (win0_2.index t (0 : Fin 2) = t.val / 8 ∧ win0_2.index t (1 : Fin 2) = 0)
    ∧ (win0_4.index t (0 : Fin 2) = t.val / 8 ∧ win0_4.index t (1 : Fin 2) = 0) ∧ (win0_6.index t (0 : Fin 2) = t.val / 8 ∧ win0_6.index t (1 : Fin 2) = 0) := by
  decide +kernel
/-- and the odd windows' (t % 8, 0). -/
theorem idx_odd : ∀ t : Fin grid0.N,
    (win0_1.index t (0 : Fin 2) = t.val % 8 ∧ win0_1.index t (1 : Fin 2) = 0) ∧ (win0_3.index t (0 : Fin 2) = t.val % 8 ∧ win0_3.index t (1 : Fin 2) = 0)
    ∧ (win0_5.index t (0 : Fin 2) = t.val % 8 ∧ win0_5.index t (1 : Fin 2) = 0) ∧ (win0_7.index t (0 : Fin 2) = t.val % 8 ∧ win0_7.index t (1 : Fin 2) = 0) := by
  decide +kernel

theorem tdiv_lt (t : Fin cfg0.N) : t.val / 8 < 8 := by have := t.isLt; have : cfg0.N = 64 := N_0; omega
theorem tmod_lt (t : Fin cfg0.N) : t.val % 8 < 8 := Nat.mod_lt _ (by decide)

/-- Window 0's block at point t is row tile t / 8 of `main_arg0`: element (r, k) of the block sits in the array at
    row (t / 8) · 512 + r, column k. -/
theorem cur_xb0 (c : Dev nD) (t : Fin cfg0.N) :
    cur (xb0 (F := Ideal) m c t) = blk (arr2 (m ((c.tc : Thread nD τ).loc main_arg0))) ⟨t.val / 8, tdiv_lt t⟩ := by
  have hi := (idx_even t).1
  funext r k
  show xb0 (F := Ideal) m c t (ix2 r k) = (m ((c.tc : Thread nD τ).loc main_arg0) : S4096x512.Idx → Ideal .f32) (ix2 (tile ⟨t.val / 8, tdiv_lt t⟩ r) k)
  unfold xb0 iblk
  rw [View.read_apply]
  show V m c main_arg0 _ = m (c.tc.loc main_arg0) _
  unfold V
  congr 1
  funext a
  apply Fin.ext
  match a with
  | ⟨0, _⟩ => show win0_0.index t 0 * 512 + 1 * r.val = t.val / 8 * 512 + r.val; rw [hi.1]; omega
  | ⟨1, _⟩ => show win0_0.index t 1 * 512 + 1 * k.val = k.val; rw [hi.2]; omega

/-- Window 2's block at point t is row tile t / 8 of `main_arg1`. -/
theorem cur_xb2 (c : Dev nD) (t : Fin cfg0.N) :
    cur (xb2 (F := Ideal) m c t) = blk (arr2 (m ((c.tc : Thread nD τ).loc main_arg1))) ⟨t.val / 8, tdiv_lt t⟩ := by
  have hi := (idx_even t).2.1
  funext r k
  show xb2 (F := Ideal) m c t (ix2 r k) = (m ((c.tc : Thread nD τ).loc main_arg1) : S4096x512.Idx → Ideal .f32) (ix2 (tile ⟨t.val / 8, tdiv_lt t⟩ r) k)
  unfold xb2 iblk
  rw [View.read_apply]
  show V m c main_arg1 _ = m (c.tc.loc main_arg1) _
  unfold V
  congr 1
  funext a
  apply Fin.ext
  match a with
  | ⟨0, _⟩ => show win0_2.index t 0 * 512 + 1 * r.val = t.val / 8 * 512 + r.val; rw [hi.1]; omega
  | ⟨1, _⟩ => show win0_2.index t 1 * 512 + 1 * k.val = k.val; rw [hi.2]; omega

/-- Window 4's block at point t is row tile t / 8 of `main_arg2`. -/
theorem cur_xb4 (c : Dev nD) (t : Fin cfg0.N) :
    cur (xb4 (F := Ideal) m c t) = blk (arr2 (m ((c.tc : Thread nD τ).loc main_arg2))) ⟨t.val / 8, tdiv_lt t⟩ := by
  have hi := (idx_even t).2.2.1
  funext r k
  show xb4 (F := Ideal) m c t (ix2 r k) = (m ((c.tc : Thread nD τ).loc main_arg2) : S4096x512.Idx → Ideal .f32) (ix2 (tile ⟨t.val / 8, tdiv_lt t⟩ r) k)
  unfold xb4 iblk
  rw [View.read_apply]
  show V m c main_arg2 _ = m (c.tc.loc main_arg2) _
  unfold V
  congr 1
  funext a
  apply Fin.ext
  match a with
  | ⟨0, _⟩ => show win0_4.index t 0 * 512 + 1 * r.val = t.val / 8 * 512 + r.val; rw [hi.1]; omega
  | ⟨1, _⟩ => show win0_4.index t 1 * 512 + 1 * k.val = k.val; rw [hi.2]; omega

/-- Window 6's block at point t is row tile t / 8 of `main_arg3`. -/
theorem cur_xb6 (c : Dev nD) (t : Fin cfg0.N) :
    cur (xb6 (F := Ideal) m c t) = blk (arr2 (m ((c.tc : Thread nD τ).loc main_arg3))) ⟨t.val / 8, tdiv_lt t⟩ := by
  have hi := (idx_even t).2.2.2
  funext r k
  show xb6 (F := Ideal) m c t (ix2 r k) = (m ((c.tc : Thread nD τ).loc main_arg3) : S4096x512.Idx → Ideal .f32) (ix2 (tile ⟨t.val / 8, tdiv_lt t⟩ r) k)
  unfold xb6 iblk
  rw [View.read_apply]
  show V m c main_arg3 _ = m (c.tc.loc main_arg3) _
  unfold V
  congr 1
  funext a
  apply Fin.ext
  match a with
  | ⟨0, _⟩ => show win0_6.index t 0 * 512 + 1 * r.val = t.val / 8 * 512 + r.val; rw [hi.1]; omega
  | ⟨1, _⟩ => show win0_6.index t 1 * 512 + 1 * k.val = k.val; rw [hi.2]; omega

/-- Window 1's block at point t is row tile t % 8 of `main_arg0`: element (r, k) of the block sits in the array at
    row (t % 8) · 512 + r, column k. -/
theorem cur_xb1 (c : Dev nD) (t : Fin cfg0.N) :
    cur (xb1 (F := Ideal) m c t) = blk (arr2 (m ((c.tc : Thread nD τ).loc main_arg0))) ⟨t.val % 8, tmod_lt t⟩ := by
  have hi := (idx_odd t).1
  funext r k
  show xb1 (F := Ideal) m c t (ix2 r k) = (m ((c.tc : Thread nD τ).loc main_arg0) : S4096x512.Idx → Ideal .f32) (ix2 (tile ⟨t.val % 8, tmod_lt t⟩ r) k)
  unfold xb1 iblk
  rw [View.read_apply]
  show V m c main_arg0 _ = m (c.tc.loc main_arg0) _
  unfold V
  congr 1
  funext a
  apply Fin.ext
  match a with
  | ⟨0, _⟩ => show win0_1.index t 0 * 512 + 1 * r.val = t.val % 8 * 512 + r.val; rw [hi.1]; omega
  | ⟨1, _⟩ => show win0_1.index t 1 * 512 + 1 * k.val = k.val; rw [hi.2]; omega

/-- Window 3's block at point t is row tile t % 8 of `main_arg1`. -/
theorem cur_xb3 (c : Dev nD) (t : Fin cfg0.N) :
    cur (xb3 (F := Ideal) m c t) = blk (arr2 (m ((c.tc : Thread nD τ).loc main_arg1))) ⟨t.val % 8, tmod_lt t⟩ := by
  have hi := (idx_odd t).2.1
  funext r k
  show xb3 (F := Ideal) m c t (ix2 r k) = (m ((c.tc : Thread nD τ).loc main_arg1) : S4096x512.Idx → Ideal .f32) (ix2 (tile ⟨t.val % 8, tmod_lt t⟩ r) k)
  unfold xb3 iblk
  rw [View.read_apply]
  show V m c main_arg1 _ = m (c.tc.loc main_arg1) _
  unfold V
  congr 1
  funext a
  apply Fin.ext
  match a with
  | ⟨0, _⟩ => show win0_3.index t 0 * 512 + 1 * r.val = t.val % 8 * 512 + r.val; rw [hi.1]; omega
  | ⟨1, _⟩ => show win0_3.index t 1 * 512 + 1 * k.val = k.val; rw [hi.2]; omega

/-- Window 5's block at point t is row tile t % 8 of `main_arg2`. -/
theorem cur_xb5 (c : Dev nD) (t : Fin cfg0.N) :
    cur (xb5 (F := Ideal) m c t) = blk (arr2 (m ((c.tc : Thread nD τ).loc main_arg2))) ⟨t.val % 8, tmod_lt t⟩ := by
  have hi := (idx_odd t).2.2.1
  funext r k
  show xb5 (F := Ideal) m c t (ix2 r k) = (m ((c.tc : Thread nD τ).loc main_arg2) : S4096x512.Idx → Ideal .f32) (ix2 (tile ⟨t.val % 8, tmod_lt t⟩ r) k)
  unfold xb5 iblk
  rw [View.read_apply]
  show V m c main_arg2 _ = m (c.tc.loc main_arg2) _
  unfold V
  congr 1
  funext a
  apply Fin.ext
  match a with
  | ⟨0, _⟩ => show win0_5.index t 0 * 512 + 1 * r.val = t.val % 8 * 512 + r.val; rw [hi.1]; omega
  | ⟨1, _⟩ => show win0_5.index t 1 * 512 + 1 * k.val = k.val; rw [hi.2]; omega

/-- Window 7's block at point t is row tile t % 8 of `main_arg3`. -/
theorem cur_xb7 (c : Dev nD) (t : Fin cfg0.N) :
    cur (xb7 (F := Ideal) m c t) = blk (arr2 (m ((c.tc : Thread nD τ).loc main_arg3))) ⟨t.val % 8, tmod_lt t⟩ := by
  have hi := (idx_odd t).2.2.2
  funext r k
  show xb7 (F := Ideal) m c t (ix2 r k) = (m ((c.tc : Thread nD τ).loc main_arg3) : S4096x512.Idx → Ideal .f32) (ix2 (tile ⟨t.val % 8, tmod_lt t⟩ r) k)
  unfold xb7 iblk
  rw [View.read_apply]
  show V m c main_arg3 _ = m (c.tc.loc main_arg3) _
  unfold V
  congr 1
  funext a
  apply Fin.ext
  match a with
  | ⟨0, _⟩ => show win0_7.index t 0 * 512 + 1 * r.val = t.val % 8 * 512 + r.val; rw [hi.1]; omega
  | ⟨1, _⟩ => show win0_7.index t 1 * 512 + 1 * k.val = k.val; rw [hi.2]; omega

/-! ## The accumulator: after point 8 i + j every lane holds the partial losses of the tile pairs (i, 0) … (i, j) added -/

/-- The tile pair (i, j)'s partial loss, from the four feature maps as launched. -/
def part (c : Dev nD) (i j : Fin 8) : EReal :=
  blockPartial (blk (arr2 (m ((c.tc : Thread nD τ).loc main_arg0))) i) (blk (arr2 (m ((c.tc : Thread nD τ).loc main_arg0))) j)
    (blk (arr2 (m ((c.tc : Thread nD τ).loc main_arg1))) i) (blk (arr2 (m ((c.tc : Thread nD τ).loc main_arg1))) j)
    (blk (arr2 (m ((c.tc : Thread nD τ).loc main_arg2))) i) (blk (arr2 (m ((c.tc : Thread nD τ).loc main_arg2))) j)
    (blk (arr2 (m ((c.tc : Thread nD τ).loc main_arg3))) i) (blk (arr2 (m ((c.tc : Thread nD τ).loc main_arg3))) j)

/-- The same over naturals (zero off the grid), for sums over ranges. -/
def partN (c : Dev nD) (i j : ℕ) : EReal := if h : i < 8 ∧ j < 8 then part m c ⟨i, h.1⟩ ⟨j, h.2⟩ else 0

/-- What point t adds: the partial loss of the tile pair (t / 8, t % 8). -/
theorem point_part (c : Dev nD) (t : Fin cfg0.N) (i j : ℕ) (hi : t.val / 8 = i) (hj : t.val % 8 = j) :
    blockPartial (cur (xb0 (F := Ideal) m c t)) (cur (xb1 (F := Ideal) m c t)) (cur (xb2 (F := Ideal) m c t)) (cur (xb3 (F := Ideal) m c t))
      (cur (xb4 (F := Ideal) m c t)) (cur (xb5 (F := Ideal) m c t)) (cur (xb6 (F := Ideal) m c t)) (cur (xb7 (F := Ideal) m c t)) = partN m c i j := by
  subst hi hj
  rw [cur_xb0, cur_xb1, cur_xb2, cur_xb3, cur_xb4, cur_xb5, cur_xb6, cur_xb7]
  unfold partN
  rw [dif_pos ⟨tdiv_lt t, tmod_lt t⟩]
  rfl

/-- Every lane of the accumulator after point n is the sum over j' ≤ n % 8 of the partial losses of the pairs (n / 8, j'). -/
theorem acc_lane (c : Dev nD) : ∀ (n : ℕ) (h : n < cfg0.N) (a : Fin 8) (b : Fin 128),
    (accAt (F := Ideal) m c n h (ix2 a b) : EReal) = ∑ j' ∈ Finset.range (n % 8 + 1), partN m c (n / 8) j'
  | 0, h, a, b => by
    show (accStep (F := Ideal) (k0_pay2 (F := Ideal)) _ _ _ _ _ _ _ _ (ix2 a b) : EReal) = _
    rw [Payload.accStep_apply, Payload.pay2_apply, zero_add, point_part m c ⟨0, h⟩ 0 0 (Nat.zero_div 8) (Nat.zero_mod 8)]
    simp
  | n + 1, h, a, b => by
    show (accStep (F := Ideal) (if (n + 1) % 8 = 0 then (k0_pay2 (F := Ideal)) else accAt (F := Ideal) m c n (Nat.lt_of_succ_lt h)) _ _ _ _ _ _ _ _ (ix2 a b) : EReal) = _
    rw [Payload.accStep_apply]
    by_cases hz : (n + 1) % 8 = 0
    · rw [if_pos hz, Payload.pay2_apply, zero_add, point_part m c ⟨n + 1, h⟩ ((n + 1) / 8) 0 rfl hz, hz]
      simp
    · rw [if_neg hz, acc_lane c n (Nat.lt_of_succ_lt h) a b,
        point_part m c ⟨n + 1, h⟩ (n / 8) (n % 8 + 1) (by show (n + 1) / 8 = n / 8; omega) (by show (n + 1) % 8 = n % 8 + 1; omega),
        show (n + 1) % 8 = n % 8 + 1 by omega, show (n + 1) / 8 = n / 8 by omega, Finset.sum_range_succ (n := n % 8 + 1)]

/-- Row tile i's sum over the eight pairs (i, j). -/
def rowSum (c : Dev nD) (i : Fin 8) : EReal := ∑ j : Fin 8, part m c i j

/-- At a point with j = 7 every lane holds row tile i's sum. -/
theorem acc_last (c : Dev nD) (t : Fin cfg0.N) (h7 : t.val % 8 = 7) (a : Fin 8) (b : Fin 128) :
    (accAt (F := Ideal) m c t.val t.isLt (ix2 a b) : EReal) = rowSum m c ⟨t.val / 8, tdiv_lt t⟩ := by
  rw [acc_lane m c t.val t.isLt a b, h7, Finset.sum_range]
  unfold rowSum
  refine Finset.sum_congr rfl fun j _ => ?_
  unfold partN
  rw [dif_pos ⟨tdiv_lt t, j.isLt⟩]

/-! ## The output array: block i holds row tile i's sum on every lane -/

/-- Window 8's block index is (t / 8, 0, 0), decided over the grid. -/
theorem idx_out : ∀ t : Fin grid0.N,
    win0_8.index t (0 : Fin 3) = t.val / 8 ∧ win0_8.index t (1 : Fin 3) = 0 ∧ win0_8.index t (2 : Fin 3) = 0 := by
  decide +kernel

/-- The array the call leaves: at every index of block i, row tile i's sum. -/
def outArr (c : Dev nD) : (⟨S8x8x128, .f32⟩ : BufTy).Contents (Elt Ideal) := fun y => rowSum m c ⟨(y 0).val, (y 0).isLt⟩

/-- What the accumulator's copy holds at a point with j = 7, as the output block. -/
theorem after_out (c : Dev nD) (t : Fin cfg0.N) :
    (dat (F := Ideal) m c).after 8 t = k0_pay1 (F := Ideal) (accAt (F := Ideal) m c t.val t.isLt) := by
  dsimp only [dat]

/-- Each write-back writes its block of `outArr`. -/
theorem flushed_eq (c : Dev nD) (t : Fin cfg0.N) (hf : (cfg0.win 8).flush t = true) :
    (dat (F := Ideal) m c).flushed 8 t = ((cfg0.win 8).blk t).view.read (Elt Ideal) (outArr m c) := by
  have h7 : t.val % 8 = 7 := (flush0_8 t).mp hf
  have hi := idx_out t
  show (cfg0.win 8).cut (grid0.coords t) ((dat (F := Ideal) m c).after 8 t) = _
  rw [after_out]
  funext (y : S1x8x128.Idx)
  rw [View.read_apply]
  have hy0 : (y 0).val < 1 := (y 0).isLt
  have hy1 : (y 1).val < 8 := (y 1).isLt
  have hy2 : (y 2).val < 128 := (y 2).isLt
  have e : win0_8.xinj (grid0.coords t) y = ix3 (0 : Fin 1) (⟨(y 1).val, hy1⟩ : Fin 8) (⟨(y 2).val, hy2⟩ : Fin 128) := by
    funext a
    apply Fin.ext
    match a with
    | ⟨0, _⟩ => show (y 0).val = 0; omega
    | ⟨1, _⟩ => rfl
    | ⟨2, _⟩ => rfl
  show (k0_pay1 (F := Ideal) (accAt (F := Ideal) m c t.val t.isLt) (win0_8.xinj (grid0.coords t) y) : EReal) = outArr m c (((cfg0.win 8).blk t).view.emb y)
  rw [e, Payload.pay1_apply, acc_last m c t h7]
  unfold outArr
  congr 1
  apply Fin.ext
  show t.val / 8 = win0_8.index t 0 * 1 + 1 * (y 0).val
  rw [hi.1]; omega

/-- So the output array ends holding `outArr`: the points with j = 7 cover it, block i at point 8 i + 7. -/
theorem final_o (c : Dev nD) : (dat (F := Ideal) m c).arrAt 8 cfg0.N = outArr m c :=
  (dat (F := Ideal) m c).arrAt_eq_of_cover 8 (outArr m c) (flushed_eq m c) fun (i : S8x8x128.Idx) => by
    have hN : cfg0.N = 64 := N_0
    have h0 : (i 0).val < 8 := (i 0).isLt
    have h1 : (i 1).val < 8 := (i 1).isLt
    have h2 : (i 2).val < 128 := (i 2).isLt
    have ht : 8 * (i 0).val + 7 < cfg0.N := by omega
    have hi := idx_out ⟨8 * (i 0).val + 7, ht⟩
    refine ⟨⟨8 * (i 0).val + 7, ht⟩, (flush0_8 _).mpr (by show (8 * (i 0).val + 7) % 8 = 7; omega), ?_⟩
    show i ∈ ((View.whole main_v0).slice (win0_8.rect ⟨8 * (i 0).val + 7, ht⟩)).set
    rw [View.set_slice_whole, Rect.mem_set_unit]
    intro a
    match a with
    | ⟨0, _⟩ =>
      show win0_8.index ⟨8 * (i 0).val + 7, ht⟩ 0 * 1 ≤ (i 0).val ∧ (i 0).val < win0_8.index ⟨8 * (i 0).val + 7, ht⟩ 0 * 1 + 1
      rw [hi.1]; show (8 * (i 0).val + 7) / 8 * 1 ≤ (i 0).val ∧ (i 0).val < (8 * (i 0).val + 7) / 8 * 1 + 1; omega
    | ⟨1, _⟩ =>
      show win0_8.index ⟨8 * (i 0).val + 7, ht⟩ 1 * 8 ≤ (i 1).val ∧ (i 1).val < win0_8.index ⟨8 * (i 0).val + 7, ht⟩ 1 * 8 + 8
      rw [hi.2.1]; omega
    | ⟨2, _⟩ =>
      show win0_8.index ⟨8 * (i 0).val + 7, ht⟩ 2 * 128 ≤ (i 2).val ∧ (i 2).val < win0_8.index ⟨8 * (i 0).val + 7, ht⟩ 2 * 128 + 128
      rw [hi.2.2]; omega

/-- The host operations' value of the output array the call leaves is `kerVal` of the four argument arrays. -/
theorem out_value (m : (ℓ : Loc nD τ sig) → Buf (Elt Ideal) ℓ) (c : Dev nD) :
    tailVal (F := Ideal) ((dat (F := Ideal) m c).arrAt 8 cfg0.N)
      = fun _ => kerVal (arr2 (m ((c.tc : Thread nD τ).loc main_arg0))) (arr2 (m ((c.tc : Thread nD τ).loc main_arg1)))
          (arr2 (m ((c.tc : Thread nD τ).loc main_arg2))) (arr2 (m ((c.tc : Thread nD τ).loc main_arg3))) := by
  rw [final_o m c]
  funext j
  rw [tail_apply]
  unfold kerVal
  congr 1

end Cert.KernelIdeal.KernelValue

end
-- ==== Proof.RefValue.lean ====
/-
  The reference program's result, read one operation at a time, is the specification's `refVal` of the four argument arrays.
-/
import proofs.«135397_j31490700214616_1_alg».proof.Proof.Gen.ReferenceIdeal.Run
import proofs.«135397_j31490700214616_1_alg».proof.Proof.Gen.ReferenceIdeal.Read
import proofs.«135397_j31490700214616_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.PgclSpec

/-- The normalised rows: entry `(p, k)` of the first map divided by the larger of its row's length and the floor. -/
theorem row0 (x0 : (⟨S4096x512, .f32⟩ : BufTy).Contents (Elt Ideal)) (p : Fin 4096) (k : Fin 512) :
    Read.val_main_v4 (F := Ideal) x0 (ValueIdx.ix2 p k) = unit (arr2 x0) p k := by
  rw [Read.val_main_v4_apply, Read.val_main_v3_apply, Read.val_main_v2_apply, Read.val_main_v0_apply,
    Read.val_main_v1_apply, Read.val_main_cst_apply, Read.val_main_call0_v2_apply, Read.val_main_call0_v1_apply,
    Read.val_main_call0_cst_apply]
  have hidx : ∀ k' : Fin 512, Read.idx_main_call0_v1 (Read.idx_main_call0_v2 (Read.idx_main_v3 (ValueIdx.ix2 p k))) k'
      = ValueIdx.ix2 p k' :=
    fun k' => funext fun a => Fin.ext (by match a with | ⟨0, _⟩ => rfl | ⟨1, _⟩ => rfl)
  simp only [hidx, Read.val_main_call0_v0_apply, Ideal.hostDivf_def, Ideal.maximumf_def, Ideal.hostUnary_sqrt_def,
    Ideal.ofBits_def, Ideal.mulf_def, Ideal.ofBits_zero_f32, zero_add]
  rfl

/-- A Gram entry: the contraction of the normalised rows with their transpose at `(p, q)` is the inner product of
    unit rows `p` and `q`. -/
theorem gram0 (x0 : (⟨S4096x512, .f32⟩ : BufTy).Contents (Elt Ideal)) (p q : Fin 4096) :
    Read.val_main_v6 (F := Ideal) x0 (ValueIdx.ix2 p q) = gram (arr2 x0) p q := by
  rw [Read.val_main_v6_apply]
  show _ = ∑ k : Fin 512, unit (arr2 x0) p k * unit (arr2 x0) q k
  refine Finset.sum_congr rfl fun k _ => ?_
  have hl : Read.lidx_main_v6 (ValueIdx.ix2 p q) k = ValueIdx.ix2 p k :=
    funext fun a => Fin.ext (by match a with | ⟨0, _⟩ => rfl | ⟨1, _⟩ => rfl)
  have hr : Read.idx_main_v5 (Read.ridx_main_v6 (ValueIdx.ix2 p q) k) = ValueIdx.ix2 q k :=
    funext fun a => Fin.ext (by match a with | ⟨0, _⟩ => rfl | ⟨1, _⟩ => rfl)
  rw [Read.val_main_v5_apply, hl, hr, row0, row0]

/-- The other three maps go through the same operations, so their Gram entries are the same function of their map. -/
theorem gram1 (x1 : (⟨S4096x512, .f32⟩ : BufTy).Contents (Elt Ideal)) (p q : Fin 4096) :
    Read.val_main_v13 (F := Ideal) x1 (ValueIdx.ix2 p q) = gram (arr2 x1) p q := gram0 x1 p q
theorem gram2 (x2 : (⟨S4096x512, .f32⟩ : BufTy).Contents (Elt Ideal)) (p q : Fin 4096) :
    Read.val_main_v20 (F := Ideal) x2 (ValueIdx.ix2 p q) = gram (arr2 x2) p q := gram0 x2 p q
theorem gram3 (x3 : (⟨S4096x512, .f32⟩ : BufTy).Contents (Elt Ideal)) (p q : Fin 4096) :
    Read.val_main_v27 (F := Ideal) x3 (ValueIdx.ix2 p q) = gram (arr2 x3) p q := gram0 x3 p q

/-- One loss: the sum over every entry of the squared difference of the tenfold Gram matrices, over the count. -/
theorem loss0 (x0 x3 : (⟨S4096x512, .f32⟩ : BufTy).Contents (Elt Ideal)) (i : S_.Idx) :
    Read.val_main_v35 (F := Ideal) x0 x3 i = refLoss (arr2 x3) (arr2 x0) := by
  rw [Read.val_main_v35_apply, Read.val_main_v34_apply, Read.val_main_cst_5_apply, Read.val_main_cst_6_apply,
    ValueIdx.sum_idx2]
  simp only [Read.val_main_v33_apply, Read.val_main_v32_apply, Read.val_main_v29_apply, Read.val_main_v31_apply,
    Read.val_main_v28_apply, Read.val_main_v30_apply, Read.val_main_cst_3_apply, Read.val_main_cst_4_apply,
    gram0, gram3, Ideal.hostDivf_def, Ideal.mulf_def, Ideal.subf_def, Ideal.ofBits_def, Ideal.ofBits_zero_f32, zero_add]
  rfl

theorem loss1 (x1 x3 : (⟨S4096x512, .f32⟩ : BufTy).Contents (Elt Ideal)) (i : S_.Idx) :
    Read.val_main_v43 (F := Ideal) x1 x3 i = refLoss (arr2 x3) (arr2 x1) := loss0 x1 x3 i
theorem loss2 (x2 x3 : (⟨S4096x512, .f32⟩ : BufTy).Contents (Elt Ideal)) (i : S_.Idx) :
    Read.val_main_v51 (F := Ideal) x2 x3 i = refLoss (arr2 x3) (arr2 x2) := loss0 x2 x3 i

/-- The reference run's result term at `Ideal` is `refVal` of the argument arrays, at its one index. -/
theorem ref_value (m : (ℓ : Loc nD τ sig) → Buf (Elt Ideal) ℓ) (c : Dev nD) :
    Cert.ReferenceIdeal.Value.res_out0 (F := Ideal) m c
      = fun _ => refVal (arr2 (m ((c.tc : Thread nD τ).loc main_arg0))) (arr2 (m ((c.tc : Thread nD τ).loc main_arg1)))
          (arr2 (m ((c.tc : Thread nD τ).loc main_arg2))) (arr2 (m ((c.tc : Thread nD τ).loc main_arg3))) := by
  show Cert.ReferenceIdeal.Value.res_main_v53 (F := Ideal) m c = _
  rw [Read.val_main_v53_eq]
  funext i
  rw [Read.val_main_v53_apply, Read.val_main_v52_apply, loss0, loss1, loss2]
  rfl

end Cert.ReferenceIdeal.RefValue

end
-- ==== Proof.Algebra.lean ====
/-
  The two arrangements of the loss agree on the extended reals.

  Three laws join them.  Multiplying by the real number ten distributes over a difference of extended reals (ten is
  positive and finite).  A sum over all 4096² entries is the sum over the 8 × 8 tile pairs of the sums over each pair's
  512 × 512 entries (addition of extended reals is commutative and associative, so the order of summation is free).
  Dividing by the positive real count distributes over a sum.  No entry needs to be finite.
-/
import proofs.«135397_j31490700214616_1_alg».proof.Proof.Spec
import Mathlib.Data.EReal.Basic
import Mathlib.Data.EReal.Operations
import Mathlib.Algebra.BigOperators.Fin
import Mathlib.Data.Fintype.BigOperators

noncomputable section

namespace Cert.PgclSpec

open Idealize.ShloMosaic

/-! ## The two float constants as reals -/

/-- The pattern of ten denotes the real number ten. -/
theorem ten_eq : ten = ((10 : ℝ) : EReal) := by
  unfold ten
  simp [Ideal.ofBits, Ideal.ieee, -EReal.coe_mul]; norm_num

/-- The pattern of the count denotes the real number 4096². -/
theorem cnt_eq : cnt = ((16777216 : ℝ) : EReal) := by
  unfold cnt
  simp [Ideal.ofBits, Ideal.ieee, -EReal.coe_mul]; norm_num

/-! ## Multiplying by a nonnegative real is additive on the extended reals -/

/-- A difference times ten is the difference of the products. -/
theorem sub_mul_ten (x y : EReal) : (x - y) * ten = x * ten - y * ten := by
  rw [ten_eq]
  exact EReal.sub_mul_of_nonneg_of_ne_top (by exact_mod_cast (by norm_num : (0 : ℝ) ≤ 10)) (EReal.coe_ne_top _)

/-- Multiplication on the right by a nonnegative real, as an additive map. -/
def mulRight (c : ℝ) (hc : 0 ≤ c) : EReal →+ EReal where
  toFun x := x * (c : EReal)
  map_zero' := zero_mul _
  map_add' x y := EReal.right_distrib_of_nonneg_of_ne_top (by exact_mod_cast hc) (EReal.coe_ne_top _) x y

/-- Dividing by the count is multiplying by its reciprocal. -/
theorem div_cnt (x : EReal) : Ideal.div x cnt = mulRight (1 / 16777216) (by norm_num) x := by
  rw [cnt_eq, Ideal.div_coe (by norm_num)]
  rfl

/-! ## A sum over 4096 rows is the sum over 8 tiles of 512 rows -/

/-- Tile and row within the tile, against the row of the whole map. -/
def tileEquiv : Fin 8 × Fin 512 ≃ Fin 4096 where
  toFun x := tile x.1 x.2
  invFun p := (⟨p.val / 512, by have := p.isLt; omega⟩, ⟨p.val % 512, by omega⟩)
  left_inv := by
    rintro ⟨i, r⟩
    have hi := i.isLt
    have hr := r.isLt
    ext
    · simp only [tile]; omega
    · simp only [tile]; omega
  right_inv := by
    intro p
    ext
    simp only [tile]; omega

theorem sum_tile {M : Type*} [AddCommMonoid M] (f : Fin 4096 → M) :
    ∑ p : Fin 4096, f p = ∑ i : Fin 8, ∑ r : Fin 512, f (tile i r) := by
  rw [← Fintype.sum_prod_type' (f := fun i r => f (tile i r))]
  exact (Fintype.sum_equiv tileEquiv _ _ (fun _ => rfl)).symm

/-- A double sum over all rows is the sum over tile pairs of the double sums within each pair. -/
theorem sum_tile_pair {M : Type*} [AddCommMonoid M] (f : Fin 4096 → Fin 4096 → M) :
    ∑ i : Fin 8, ∑ j : Fin 8, ∑ r : Fin 512, ∑ s : Fin 512, f (tile i r) (tile j s)
      = ∑ p : Fin 4096, ∑ q : Fin 4096, f p q := by
  rw [sum_tile (fun p => ∑ q : Fin 4096, f p q)]
  refine Finset.sum_congr rfl fun i _ => ?_
  rw [Finset.sum_comm]
  refine Finset.sum_congr rfl fun r _ => ?_
  rw [sum_tile (fun q => f (tile i r) q)]

/-! ## One modality -/

/-- One entry of a modality's squared tenfold Gram difference, the reference's way. -/
def sqEntry (t a : Fin 4096 → Fin 512 → EReal) (p q : Fin 4096) : EReal :=
  (gram t p q * ten - gram a p q * ten) * (gram t p q * ten - gram a p q * ten)

/-- A tile pair's sum is the sum of the whole map's entries over that pair. -/
theorem sqB_blk (t a : Fin 4096 → Fin 512 → EReal) (i j : Fin 8) :
    sqB (blk t i) (blk t j) (blk a i) (blk a j)
      = ∑ r : Fin 512, ∑ s : Fin 512, sqEntry t a (tile i r) (tile j s) := by
  unfold sqB
  refine Finset.sum_congr rfl fun r _ => Finset.sum_congr rfl fun s _ => ?_
  have h1 : gramB (blk t i) (blk t j) r s = gram t (tile i r) (tile j s) := rfl
  have h2 : gramB (blk a i) (blk a j) r s = gram a (tile i r) (tile j s) := rfl
  rw [h1, h2, sub_mul_ten]
  rfl

/-- All tile pairs of one modality add to the whole double sum. -/
theorem sum_sqB (t a : Fin 4096 → Fin 512 → EReal) :
    ∑ i : Fin 8, ∑ j : Fin 8, sqB (blk t i) (blk t j) (blk a i) (blk a j)
      = ∑ p : Fin 4096, ∑ q : Fin 4096, sqEntry t a p q := by
  rw [← sum_tile_pair]
  refine Finset.sum_congr rfl fun i _ => Finset.sum_congr rfl fun j _ => ?_
  exact sqB_blk t a i j

theorem refLoss_eq (t a : Fin 4096 → Fin 512 → EReal) :
    refLoss t a = mulRight (1 / 16777216) (by norm_num) (∑ p : Fin 4096, ∑ q : Fin 4096, sqEntry t a p q) := by
  unfold refLoss
  rw [div_cnt]
  rfl

/-- The kernel's arrangement and the reference's arrangement are one extended real. -/
theorem kerVal_eq_refVal (a0 a1 a2 a3 : Fin 4096 → Fin 512 → EReal) : kerVal a0 a1 a2 a3 = refVal a0 a1 a2 a3 := by
  unfold kerVal refVal blockPartial
  rw [div_cnt, refLoss_eq, refLoss_eq, refLoss_eq, ← map_add, ← map_add]
  congr 1
  simp only [Finset.sum_add_distrib]
  rw [sum_sqB, sum_sqB, sum_sqB]

end Cert.PgclSpec

end
-- ==== Proof.lean ====
/-
  The certificate: a contrastive loss of four 4096 × 512 feature maps.  Each map's rows are scaled to unit length, the four
  4096 × 4096 Gram matrices are formed, and three of them are compared with the fourth: the mean squared tenfold difference,
  the three means added.

  The kernel walks an 8 × 8 grid of 512-row tile pairs, adds each pair's share of the three squared differences into a
  scratch accumulator along `j`, writes the accumulator out at `j = 7`, and the host adds the eight rows' totals and divides
  by 4096².  The reference forms each mean whole.  On the extended reals the two are one number (`Algebra.lean`): the factor
  ten moves across a difference, the sum over all entries is the sum over the tile pairs, and the division by the count
  moves across a sum.

  Both programs' runs are proved here: the kernel's from the body's effect at every grid point (`Body.lean`) through the
  launch (`Run.lean`; each feature map is passed to the call twice and its buffer's share dealt in halves), the value read
  off the run lane by lane (`Payload.lean`, `KernelValue.lean`); the reference's is read one operation at a time
  (`RefValue.lean`).
-/
import proofs.«135397_j31490700214616_1_alg».proof.Defs
import proofs.«135397_j31490700214616_1_alg».proof.Proof.Gen.Kernel
import proofs.«135397_j31490700214616_1_alg».proof.Proof.Gen.KernelIdeal
import proofs.«135397_j31490700214616_1_alg».proof.Proof.Gen.ReferenceIdeal
import proofs.«135397_j31490700214616_1_alg».proof.Proof.Gen.Pre_finite_inputs
import proofs.«135397_j31490700214616_1_alg».proof.Proof.Gen.ReferenceIdeal.Run
import proofs.«135397_j31490700214616_1_alg».proof.Proof.Run
import proofs.«135397_j31490700214616_1_alg».proof.Proof.RunB
import proofs.«135397_j31490700214616_1_alg».proof.Proof.KernelValue
import proofs.«135397_j31490700214616_1_alg».proof.Proof.RefValue
import proofs.«135397_j31490700214616_1_alg».proof.Proof.Algebra

noncomputable section

namespace Cert.Proof

open Idealize.ShloMosaic Idealize.ShloMosaic.TcCoe Idealize.SL.Sem
open Cert.PgclSpec

/-- The word-level kernel runs to the end and leaves its arguments as launched. -/
theorem frame_k : Cert.frame_Kernel := fun m ρ _ =>
  (θ_run Cert.Kernel.defs _ _).mono (fun _ h c => (h c).2) (Cert.Kernel.Hand.run_main (F := Bits) m ρ)

/-- So does the idealized kernel. -/
theorem frame_ki : Cert.frame_KernelIdeal := fun m ρ _ =>
  (θ_run Cert.KernelIdeal.defs _ _).mono (fun _ h c => (h c).2) (Cert.KernelIdeal.Hand.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four feature maps both programs end at one extended real: the kernel's arrangement of
    the loss on one side, the reference's on the other, equal by `kerVal_eq_refVal`. -/
theorem algebraic : Cert.algebraic_KernelIdeal_ReferenceIdeal := by
  intro m ρ m' ρ' _ hagree
  refine ⟨fun c => fun _ => kerVal (arr2 (m ((c.tc : Thread Cert.KernelIdeal.nD Cert.KernelIdeal.τ).loc Cert.KernelIdeal.main_arg0)))
      (arr2 (m ((c.tc : Thread Cert.KernelIdeal.nD Cert.KernelIdeal.τ).loc Cert.KernelIdeal.main_arg1)))
      (arr2 (m ((c.tc : Thread Cert.KernelIdeal.nD Cert.KernelIdeal.τ).loc Cert.KernelIdeal.main_arg2)))
      (arr2 (m ((c.tc : Thread Cert.KernelIdeal.nD Cert.KernelIdeal.τ).loc Cert.KernelIdeal.main_arg3))), ?_, ?_⟩
  · exact (θ_run Cert.KernelIdeal.defs _ _).mono
      (fun _ h c => ⟨(h c).1.trans (Cert.KernelIdeal.KernelValue.out_value m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.ref_value m' c).trans ?_
    rw [(hagree c).1, (hagree c).2.1, (hagree c).2.2.1, (hagree c).2.2.2]
    exact funext fun _ => (kerVal_eq_refVal _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
